-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x16 : Shape := ⟨2, ![128, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg4 : FVec F S16x7 .f32) (main_arg5 : FVec F S7 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x7 .f32 := Host.absf main_arg4
  let main_cst_6 : FVec F S_ .f32 := constant S_ .f32 0x7F800000#32
  let main_v20 : FVec F S16x7 .f32 := broadcastInDim S16x7 ![] bcast_S_S16x7 main_cst_6
  let main_v21 : IVec S16x7 1 := cmpf .olt main_v19 main_v20
  let main_c_7 : IVec S_ 1 := constantI S_ 1 1#1
  let main_v22 : IVec S_ 1 := (fun x v => Host.reduce IntOp.andi x v reducesTo_S16x7_S_d0_1 h_S_) main_v21 main_c_7
  let main_v23 : IVec S_ 1 := andi main_v18 main_v22
  let main_v24 : FVec F S7 .f32 := Host.absf main_arg5
  let main_cst_8 : FVec F S_ .f32 := constant S_ .f32 0x7F800000#32
  let main_v25 : FVec F S7 .f32 := broadcastInDim S7 ![] bcast_S_S7 main_cst_8
  let main_v26 : IVec S7 1 := cmpf .olt main_v24 main_v25
  let main_c_9 : IVec S_ 1 := constantI S_ 1 1#1
  let main_v27 : IVec S_ 1 := (fun x v => Host.reduce IntOp.andi x v reducesTo_S7_S_d0 h_S_) main_v26 main_c_9
  let main_v28 : IVec S_ 1 := andi main_v23 main_v27
  main_v28

def fn {F : FTy → Type} [FloatOps F] (main_arg0 : FVec F S10000x10000 .f32) (main_arg1 : FVec F S10000x128 .f32) (main_arg2 : FVec F S128x16 .f32) (main_arg3 : FVec F S16 .f32) (main_arg4 : FVec F S16x7 .f32) (main_arg5 : FVec F S7 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x16 .f32 := Host.absf main_arg2
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_v13 main_v16
-- ==== Kernel.lean ====
abbrev S10000x10000 : Shape := ⟨2, ![10000, 10000]⟩
abbrev S10000x128 : Shape := ⟨2, ![10000, 128]⟩
abbrev S128x16 : Shape := ⟨2, ![128, 16]⟩
abbrev S16 : Shape := ⟨1, ![16]⟩
abbrev S16x7 : Shape := ⟨2, ![16, 7]⟩
abbrev S7 : Shape := ⟨1, ![7]⟩
abbrev S1x16 : Shape := ⟨2, ![1, 16]⟩
abbrev S1x7 : Shape := ⟨2, ![1, 7]⟩
abbrev S10000x7 : Shape := ⟨2, ![10000, 7]⟩
abbrev S400x10000 : Shape := ⟨2, ![400, 10000]⟩
abbrev S400x7 : Shape := ⟨2, ![400, 7]⟩
abbrev S10000x16 : Shape := ⟨2, ![10000, 16]⟩
abbrev S400x16 : Shape := ⟨2, ![400, 16]⟩

abbrev nBuf : Space → Nat
  | .hbm => 9
  | .vmem => 11
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S1x16, .f32⟩
  | .hbm, ⟨7, _⟩ => ⟨S1x7, .f32⟩
  | .hbm, ⟨8, _⟩ => ⟨S10000x7, .f32⟩
  | .local _ .vmem, ⟨0, _⟩ => ⟨S10000x128, .f32⟩
  | .local _ .vmem, ⟨1, _⟩ => ⟨S128x16, .f32⟩
  | .local _ .vmem, ⟨2, _⟩ => ⟨S1x16, .f32⟩
  | .local _ .vmem, ⟨3, _⟩ => ⟨S16x7, .f32⟩
  | .local _ .vmem, ⟨4, _⟩ => ⟨S1x7, .f32⟩
  | .local _ .vmem, ⟨5, _⟩ => ⟨S400x10000, .f32⟩
  | .local _ .vmem, ⟨6, _⟩ => ⟨S400x10000, .f32⟩
  | .local _ .vmem, ⟨7, _⟩ => ⟨S400x7, .f32⟩
  | .local _ .vmem, ⟨8, _⟩ => ⟨S400x7, .f32⟩
  | .local _ .vmem, ⟨9, _⟩ => ⟨S10000x16, .f32⟩
  | .local _ .vmem, ⟨10, _⟩ => ⟨S10000x7, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![51], ![false]⟩

def k0_cond2 (i : grid0.Coords) : BitVec 1 :=
  let arg0 : BitVec 32 := BitVec.ofNat 32 (i 0).val
  let c1_i32 : BitVec 32 := 1#32
  let v3 : BitVec 1 := Scalar.cmpi .sge arg0 c1_i32
  let c25_i32 : BitVec 32 := 25#32
  let v4 : BitVec 1 := Scalar.cmpi .sle arg0 c25_i32
  let v5 : BitVec 1 := Scalar.andi v3 v4
  let v6 : BitVec 32 := Scalar.extui v5
  let c0_i32_1 : BitVec 32 := 0#32
  let v7 : BitVec 1 := Scalar.cmpi .ne v6 c0_i32_1
  v7

def k0_off1 (i : grid0.Coords) : Fin 2 → Nat :=
  let arg0 : BitVec 32 := BitVec.ofNat 32 (i 0).val
  let c1_i32_13 : BitVec 32 := 1#32
  let v22 : BitVec 32 := Scalar.subi arg0 c1_i32_13
  let c400_i32 : BitVec 32 := 400#32
  let v23 : BitVec 32 := Scalar.muli v22 c400_i32
  let v24 : Index := Scalar.indexCast v23
  let c0_14 : Index := 0#32
  ![v24.toNat, 0]
def k0_cond3 (i : grid0.Coords) : BitVec 1 :=
  let arg0 : BitVec 32 := BitVec.ofNat 32 (i 0).val
  let c25_i32_2 : BitVec 32 := 25#32
  let v8 : BitVec 1 := Scalar.cmpi .sgt arg0 c25_i32_2
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let v0 : BitVec 1 := Scalar.cmpi .eq arg0 c0_i32
  let c25_i32 : BitVec 32 := 25#32
  let v1 : BitVec 1 := Scalar.cmpi .sle arg0 c25_i32
  let c1_i32 : BitVec 32 := 1#32
  let v2 : BitVec 32 := Scalar.subi arg0 c1_i32
  let c25_i32_0 : BitVec 32 := 25#32
  let v3 : BitVec 32 := Scalar.subi arg0 c25_i32_0
  let c1_i32_1 : BitVec 32 := 1#32
  let v4 : BitVec 32 := Scalar.subi v3 c1_i32_1
  let v5 : BitVec 32 := Scalar.select v1 v2 v4
  let c0_i32_2 : BitVec 32 := 0#32
  let v6 : BitVec 32 := Scalar.select v0 c0_i32_2 v5
  let c0_i32_3 : BitVec 32 := 0#32
  let c0_i32_4 : BitVec 32 := 0#32
  ![v6.toNat, c0_i32_3.toNat]

def cc0_transform_6 (i : grid0.Coords) : Fin 2 → Nat :=
  let arg0 : BitVec 32 := BitVec.ofNat 32 (i 0).val
  let c25_i32 : BitVec 32 := 25#32
  let v0 : BitVec 1 := Scalar.cmpi .sgt arg0 c25_i32
  let c25_i32_0 : BitVec 32 := 25#32
  let v1 : BitVec 32 := Scalar.subi arg0 c25_i32_0
  let c1_i32 : BitVec 32 := 1#32
  let v2 : BitVec 32 := Scalar.subi v1 c1_i32
  let c0_i32 : BitVec 32 := 0#32
  let v3 : BitVec 32 := Scalar.select v0 v2 c0_i32
  let c0_i32_1 : BitVec 32 := 0#32
  let c0_i32_2 : BitVec 32 := 0#32
  ![v3.toNat, c0_i32_1.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x7 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x7 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x10000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x7 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S16_S1x16 : S16.ShapeCasts S1x16
  shapeCasts_S7_S1x7 : S7.ShapeCasts S1x7
  inb_S10000x128_S10000x128_0_0 : ∀ a, (![0, 0] : Fin 2 → Nat) a + S10000x128.size a ≤ S10000x128.size a
  h_S10000x128 : 0 < S10000x128.numel
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S400x10000_S400x10000_0_0 : ∀ a, (![0, 0] : Fin 2 → Nat) a + S400x10000.size a ≤ S400x10000.size a
  h_S400x10000 : 0 < S400x10000.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S400x16 : S1x16.Broadcasts S400x16
  inb_S16x7_S16x7_0_0 : ∀ a, (![0, 0] : Fin 2 → Nat) a + S16x7.size a ≤ S16x7.size a
  h_S16x7 : 0 < S16x7.numel
  h_S400x7 : 0 < S400x7.numel
  shapeCasts_S400x7_S400x7 : S400x7.ShapeCasts S400x7
  inb_S10000x7_S10000x7_0_0 : ∀ a, (![0, 0] : Fin 2 → Nat) a + S10000x7.size a ≤ S10000x7.size a
  h_S10000x7 : 0 < S10000x7.numel
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S400x7 : S1x7.Broadcasts S400x7
  inb_S400x7_S400x7_0_0 : ∀ a, (![0, 0] : Fin 2 → Nat) a + S400x7.size a ≤ S400x7.size a
  dot_S10000x128_S128x16_S10000x16_1_0_0_1_n_n_wf : DotDims.WF S10000x128 S128x16 S10000x16 [1] [0] [0] [1] [] []
  dot_S400x10000_S10000x16_S400x16_1_0_0_1_n_n_wf : DotDims.WF S400x10000 S10000x16 S400x16 [1] [0] [0] [1] [] []
  dot_S400x16_S16x7_S400x7_1_0_0_1_n_n_wf : DotDims.WF S400x16 S16x7 S400x7 [1] [0] [0] [1] [] []
  dot_S400x10000_S10000x7_S400x7_1_0_0_1_n_n_wf : DotDims.WF S400x10000 S10000x7 S400x7 [1] [0] [0] [1] [] []
  hrank0 : 0 < grid0.rank
  k0_off1_inb : ∀ i : grid0.Coords, ∀ (k0_h2 : k0_cond2 i = 1#1), ∀ a, (k0_off1 i) a + S400x7.size a ≤ S10000x7.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x7.size a ≤ S16x7.size a
  hwx0_3 : ∀ i : grid0.Coords, EltTy.bits .f32 = 32 ∨ (Rect.block (s := S16x7) S16x7.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x7.size a ≤ S1x7.size a
  hwx0_4 : ∀ i : grid0.Coords, EltTy.bits .f32 = 32 ∨ (Rect.block (s := S1x7) S1x7.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x10000.size a ≤ S10000x10000.size a
  hwx0_5 : ∀ i : grid0.Coords, EltTy.bits .f32 = 32 ∨ (Rect.block (s := S10000x10000) S400x10000.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x7.size a ≤ S10000x7.size a
  hwx0_6 : ∀ i : grid0.Coords, EltTy.bits .f32 = 32 ∨ (Rect.block (s := S10000x7) S400x7.size (cc0_transform_6 i) (hinb0_6 i)).WholeWords (EltTy.packing .f32)

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf
def dot_S400x16_S16x7_S400x7_1_0_0_1_n_n : DotDims S400x16 S16x7 S400x7 where
  lhsContracting := [1]
  rhsContracting := [0]
  lhsNonContracting := [0]
  rhsNonContracting := [1]
  lhsBatch := []
  rhsBatch := []
  wf := dot_S400x16_S16x7_S400x7_1_0_0_1_n_n_wf
def dot_S400x10000_S10000x7_S400x7_1_0_0_1_n_n : DotDims S400x10000 S10000x7 S400x7 where
  lhsContracting := [1]
  rhsContracting := [0]
  lhsNonContracting := [0]
  rhsNonContracting := [1]
  lhsBatch := []
  rhsBatch := []
  wf := dot_S400x10000_S10000x7_S400x7_1_0_0_1_n_n_wf

abbrev win0_0 : Pipeline.Window sig grid0 :=
  Pipeline.Window.ofSpec (Memref.whole main_arg1) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S16x7.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x7.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg0) S400x10000.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S400x7.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond3 i == 1#1) | ⟨_ + 7, h⟩ => absurd h (Nat.not_lt.2 (Nat.le_add_left _ _))

class Facts : Prop extends Facts₀ where

variable [Facts]
-- ==== ReferenceIdeal.lean ====
abbrev S10000x10000 : Shape := ⟨2, ![10000, 10000]⟩
abbrev S10000x128 : Shape := ⟨2, ![10000, 128]⟩
abbrev S128x16 : Shape := ⟨2, ![128, 16]⟩
abbrev S16 : Shape := ⟨1, ![16]⟩
abbrev S16x7 : Shape := ⟨2, ![16, 7]⟩
abbrev S7 : Shape := ⟨1, ![7]⟩
abbrev S10000x16 : Shape := ⟨2, ![10000, 16]⟩
abbrev S1x16 : Shape := ⟨2, ![1, 16]⟩
abbrev S_ : Shape := ⟨0, ![]⟩
abbrev S10000x7 : Shape := ⟨2, ![10000, 7]⟩
abbrev S1x7 : Shape := ⟨2, ![1, 7]⟩

abbrev nBuf : Space → Nat
  | .hbm => 19
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S10000x16, .f32⟩
  | .hbm, ⟨7, _⟩ => ⟨S10000x16, .f32⟩
  | .hbm, ⟨8, _⟩ => ⟨S1x16, .f32⟩
  | .hbm, ⟨9, _⟩ => ⟨S10000x16, .f32⟩
  | .hbm, ⟨10, _⟩ => ⟨S10000x16, .f32⟩
  | .hbm, ⟨11, _⟩ => ⟨S_, .f32⟩
  | .hbm, ⟨12, _⟩ => ⟨S10000x16, .f32⟩
  | .hbm, ⟨13, _⟩ => ⟨S10000x16, .f32⟩
  | .hbm, ⟨14, _⟩ => ⟨S10000x7, .f32⟩
  | .hbm, ⟨15, _⟩ => ⟨S10000x7, .f32⟩
  | .hbm, ⟨16, _⟩ => ⟨S1x7, .f32⟩
  | .hbm, ⟨17, _⟩ => ⟨S10000x7, .f32⟩
  | .hbm, ⟨18, _⟩ => ⟨S10000x7, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x16 : S_.BroadcastsInDim S10000x16 (![] : Fin 0 → Fin S10000x16.rank)
  bcast_S7_S1x7_1 : S7.BroadcastsInDim S1x7 (![1] : Fin 1 → Fin S1x7.rank)
  bcast_S1x7_S10000x7_0_1 : S1x7.BroadcastsInDim S10000x7 (![0, 1] : Fin 2 → Fin S10000x7.rank)
  dot_S10000x128_S128x16_S10000x16_1_0_0_1_n_n_wf : DotDims.WF S10000x128 S128x16 S10000x16 [1] [0] [0] [1] [] []
  dot_S10000x10000_S10000x16_S10000x16_1_0_0_1_n_n_wf : DotDims.WF S10000x10000 S10000x16 S10000x16 [1] [0] [0] [1] [] []
  dot_S10000x16_S16x7_S10000x7_1_0_0_1_n_n_wf : DotDims.WF S10000x16 S16x7 S10000x7 [1] [0] [0] [1] [] []
  dot_S10000x10000_S10000x7_S10000x7_1_0_0_1_n_n_wf : DotDims.WF S10000x10000 S10000x7 S10000x7 [1] [0] [0] [1] [] []

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x16_S16x7_S10000x7_1_0_0_1_n_n : DotDims S10000x16 S16x7 S10000x7 where
  lhsContracting := [1]
  rhsContracting := [0]
  lhsNonContracting := [0]
  rhsNonContracting := [1]
  lhsBatch := []
  rhsBatch := []
  wf := dot_S10000x16_S16x7_S10000x7_1_0_0_1_n_n_wf
def dot_S10000x10000_S10000x7_S10000x7_1_0_0_1_n_n : DotDims S10000x10000 S10000x7 S10000x7 where
  lhsContracting := [1]
  rhsContracting := [0]
  lhsNonContracting := [0]
  rhsNonContracting := [1]
  lhsBatch := []
  rhsBatch := []
  wf := dot_S10000x10000_S10000x7_S10000x7_1_0_0_1_n_n_wf

class Facts : Prop extends Facts₀ where

variable [Facts]
-- ==== Proof.KBody.lean ====
import proofs.«110868_g70901320122454_cont_9to1_m_1154_4_alg».proof.Proof.Gen.Kernel.Frame
import proofs.«110868_g70901320122454_cont_9to1_m_1154_4_alg».proof.Proof.Gen.Kernel.Skeleton
import Idealize.ShloMosaic.Lib.Pipeline.Value
import Idealize.ShloMosaic.Lib.WritesUnit

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf ΦA)

variable {F : FTy → Type} [FloatOps F]
local notation "𝕄" => MT nD τ sig Unit (Elt F) ℕ (UR sig nD τ) ℕ

/-! ## Which of the three phases a grid point is in

The grid has 51 points. Point 0 forms the first support X · W1 in the first scratch; points 1 to 25 each form one
400-row stripe of the second support max (L · S1 + b1) 0 · W2 in the second scratch; points 26 to 50 each write
one 400-row stripe of the result L · S2 + b2. The body tests the grid coordinate three times; the three tests are
decided here over the grid, once. -/

/-- The first test (the coordinate is 0), as the body computes it. -/
abbrev cond1 (i : grid0.Coords) : Prop :=
  Scalar.cmpi .ne (Scalar.extui (Scalar.cmpi .eq (BitVec.ofNat 32 (i 0).val) 0#32)) 0#32 = 1#1

theorem cond1_iff : ∀ t : Fin cfg0.N, cond1 (grid0.coords t) ↔ t.val = 0 :=
  (by decide +kernel : ∀ t : Fin grid0.N, cond1 (grid0.coords t) ↔ t.val = 0)
theorem cond2_iff : ∀ t : Fin cfg0.N, k0_cond2 (grid0.coords t) = 1#1 ↔ (1 ≤ t.val ∧ t.val ≤ 25) :=
  (by decide +kernel : ∀ t : Fin grid0.N, k0_cond2 (grid0.coords t) = 1#1 ↔ (1 ≤ t.val ∧ t.val ≤ 25))
theorem cond3_iff : ∀ t : Fin cfg0.N, k0_cond3 (grid0.coords t) = 1#1 ↔ 26 ≤ t.val :=
  (by decide +kernel : ∀ t : Fin grid0.N, k0_cond3 (grid0.coords t) = 1#1 ↔ 26 ≤ t.val)

/-- At a middle point t the stripe stored is rows [400 (t - 1), 400 t) and every column. -/
theorem off1_eq : ∀ t : Fin cfg0.N, 1 ≤ t.val → t.val ≤ 25 → k0_off1 (grid0.coords t) = ![400 * (t.val - 1), 0] :=
  (by decide +kernel : ∀ t : Fin grid0.N, 1 ≤ t.val → t.val ≤ 25 → k0_off1 (grid0.coords t) = ![400 * (t.val - 1), 0])

/-- The result window's block is written back exactly at the points of the last phase, -/
theorem flush6_iff : ∀ t : Fin cfg0.N, (cfg0.win 6).flush t = true ↔ 26 ≤ t.val :=
  (by decide +kernel : ∀ t : Fin grid0.N, win0_6.flush t = true ↔ 26 ≤ t.val)

/-- and the body stores nothing into it before. -/
theorem idle6_eq (t : Fin cfg0.N) : cfg0.idle 6 (cfg0.grid.coords t) = !(k0_cond3 (grid0.coords t) == 1#1) := rfl

theorem idle6_true (t : Fin cfg0.N) (h : t.val ≤ 25) : cfg0.idle 6 (cfg0.grid.coords t) = true := by
  rw [idle6_eq]
  have : ¬ k0_cond3 (grid0.coords t) = 1#1 := fun hc => by have := (cond3_iff t).mp hc; omega
  simp [this]

theorem idle6_false (t : Fin cfg0.N) (h : 26 ≤ t.val) : cfg0.idle 6 (cfg0.grid.coords t) = false := by
  rw [idle6_eq]
  have : k0_cond3 (grid0.coords t) = 1#1 := (cond3_iff t).mpr h
  simp [this]

theorem flush6_false (t : Fin cfg0.N) (h : t.val ≤ 25) : (cfg0.win 6).flush t = false := by
  cases hf : (cfg0.win 6).flush t
  · rfl
  · have := (flush6_iff t).mp hf; omega

/-- The whole-buffer rectangle's offsets are zero. -/
theorem off0 : (![0, 0] : Fin 2 → ℕ) = fun _ => 0 := funext fun a => by fin_cases a <;> rfl

/-- One store through the whole-buffer rectangle covers every index of the first scratch, -/
theorem cover_s1 (w : Vec F S10000x16 .f32) (y : S10000x16.Idx) :
    ∃ pc ∈ ([⟨Rect.unit (s := S10000x16) ![0, 0] S10000x16.size inb_S10000x16_S10000x16_0_0, w⟩] : List (View.Piece (Elt F) S10000x16 .f32)), y ∈ pc.1.set :=
  View.cover_of_tiled [⟨Rect.unit (s := S10000x16) ![0, 0] S10000x16.size inb_S10000x16_S10000x16_0_0, w⟩] S10000x16.size (by rfl) y

/-- and of the result's staging block. -/
theorem cover_o (w : Vec F S400x7 .f32) (y : S400x7.Idx) :
    ∃ pc ∈ ([⟨Rect.unit (s := S400x7) ![0, 0] S400x7.size inb_S400x7_S400x7_0_0, w⟩] : List (View.Piece (Elt F) S400x7 .f32)), y ∈ pc.1.set :=
  View.cover_of_tiled [⟨Rect.unit (s := S400x7) ![0, 0] S400x7.size inb_S400x7_S400x7_0_0, w⟩] S400x7.size (by rfl) y

/-! ## The body's triple, phase by phase

Each over the kernel's own memref parameters and any continuation; the windows and scratch a phase does not touch are
not mentioned. -/

set_option maxHeartbeats 1000000 in
/-- Point 0: X · W1 is stored over the whole first scratch. -/
theorem sound_first (c : Dev nD) (i : grid0.Coords) (h1 : cond1 i) (h2 : ¬ k0_cond2 i = 1#1) (h3 : ¬ k0_cond3 i = 1#1)
    (arg1 : Memref sig .tc .vmem S10000x128 .f32) (harg1 : arg1.IsWhole) (arg2 : Memref sig .tc .vmem S128x16 .f32) (harg2 : arg2.IsWhole) (arg3 : Memref sig .tc .vmem S1x16 .f32) (harg3 : arg3.IsWhole) (arg4 : Memref sig .tc .vmem S16x7 .f32) (harg4 : arg4.IsWhole) (arg5 : Memref sig .tc .vmem S1x7 .f32) (harg5 : arg5.IsWhole) (arg6 : Memref sig .tc .vmem S400x10000 .f32) (harg6 : arg6.IsWhole) (arg7 : Memref sig .tc .vmem S400x7 .f32) (harg7 : arg7.IsWhole) (arg8 : Memref sig .tc .vmem S10000x16 .f32) (harg8 : arg8.IsWhole) (arg9 : Memref sig .tc .vmem S10000x7 .f32) (harg9 : arg9.IsWhole)
    (x1 : Vec F S10000x128 .f32) (x2 : Vec F S128x16 .f32)
    (g0 : Buf (Elt F) (arg8.view.loc (c : Thread nD τ))) (K : PUnit → sProp 𝕄) :
    iprop(owns (c : Thread nD τ) arg1 fullShare x1 ∗ owns (c : Thread nD τ) arg2 fullShare x2
        ∗ (arg8.view.loc (c : Thread nD τ) ↦[arg8.view.set]{fullShare} g0)
        ∗ (iprop(owns (c : Thread nD τ) arg1 fullShare x1 ∗ owns (c : Thread nD τ) arg2 fullShare x2
            ∗ (∃ g0', ⌜arg8.view.read (Elt F) g0' = k0_pay1 x1 x2⌝ ∗ (arg8.view.loc (c : Thread nD τ) ↦[arg8.view.set]{fullShare} g0'))) -∗ K ⟨⟩))
      ⊢ wp frame (wpE (defs₀ (F := F)) Variants.none c none) Set.univ (cc0__fused_kernel i arg1 harg1 arg2 harg2 arg3 harg3 arg4 harg4 arg5 harg5 arg6 harg6 arg7 harg7 arg8 harg8 arg9 harg9) K := by
  simp only [cc0__fused_kernel_eq_skeleton]; unfold cc0__fused_kernel_skel
  unfold owns
  iintro ⟨⟨%f1, %hf1, H1⟩, ⟨%f2, %hf2, H2⟩, H8, Hk⟩
  subst hf1 hf2
  sl_exec (disch := first | exact h1 | exact h2 | exact h3)
  sl_step
  iapply Hk
  isplitl [H1]
  · iexists f1; isplitr; · ipureintro; rfl
    iexact H1
  isplitl [H2]
  · iexists f2; isplitr; · ipureintro; rfl
    iexact H2
  iexists _; isplitr
  swap; · iexact H8
  ipureintro
  rw [View.read_writes_eq_canon _ _ _ (cover_s1 _), View.canon_unit_zero off0, View.readAt_eq_ld, View.readAt_eq_ld,
    View.ld_unit_zero off0, View.ld_unit_zero off0]

set_option maxHeartbeats 1000000 in
/-- Points 1 to 25: the stripe's 400 rows of max (L · S1 + b1) 0 · W2 are stored into the second scratch at the
    stripe's rows; the first scratch is read and left as it was. -/
theorem sound_mid (c : Dev nD) (i : grid0.Coords) (h1 : ¬ cond1 i) (h2 : k0_cond2 i = 1#1) (h3 : ¬ k0_cond3 i = 1#1)
    (arg1 : Memref sig .tc .vmem S10000x128 .f32) (harg1 : arg1.IsWhole) (arg2 : Memref sig .tc .vmem S128x16 .f32) (harg2 : arg2.IsWhole) (arg3 : Memref sig .tc .vmem S1x16 .f32) (harg3 : arg3.IsWhole) (arg4 : Memref sig .tc .vmem S16x7 .f32) (harg4 : arg4.IsWhole) (arg5 : Memref sig .tc .vmem S1x7 .f32) (harg5 : arg5.IsWhole) (arg6 : Memref sig .tc .vmem S400x10000 .f32) (harg6 : arg6.IsWhole) (arg7 : Memref sig .tc .vmem S400x7 .f32) (harg7 : arg7.IsWhole) (arg8 : Memref sig .tc .vmem S10000x16 .f32) (harg8 : arg8.IsWhole) (arg9 : Memref sig .tc .vmem S10000x7 .f32) (harg9 : arg9.IsWhole)
    (x3 : Vec F S1x16 .f32) (x4 : Vec F S16x7 .f32) (x6 : Vec F S400x10000 .f32)
    (g0 : Buf (Elt F) (arg8.view.loc (c : Thread nD τ))) (g1 : Buf (Elt F) (arg9.view.loc (c : Thread nD τ)))
    (K : PUnit → sProp 𝕄) :
    iprop(owns (c : Thread nD τ) arg3 fullShare x3 ∗ owns (c : Thread nD τ) arg4 fullShare x4 ∗ owns (c : Thread nD τ) arg6 fullShare x6
        ∗ (arg8.view.loc (c : Thread nD τ) ↦[arg8.view.set]{fullShare} g0)
        ∗ (arg9.view.loc (c : Thread nD τ) ↦[arg9.view.set]{fullShare} g1)
        ∗ (iprop(owns (c : Thread nD τ) arg3 fullShare x3 ∗ owns (c : Thread nD τ) arg4 fullShare x4 ∗ owns (c : Thread nD τ) arg6 fullShare x6
            ∗ (arg8.view.loc (c : Thread nD τ) ↦[arg8.view.set]{fullShare} g0)
            ∗ (arg9.view.loc (c : Thread nD τ) ↦[arg9.view.set]{fullShare}
                arg9.view.writes (Elt F) g1 [⟨Rect.unit (s := S10000x7) (k0_off1 i) S400x7.size (k0_off1_inb i h2),
                  k0_pay2 x6 (arg8.view.read (Elt F) g0) x3 x4⟩])) -∗ K ⟨⟩))
      ⊢ wp frame (wpE (defs₀ (F := F)) Variants.none c none) Set.univ (cc0__fused_kernel i arg1 harg1 arg2 harg2 arg3 harg3 arg4 harg4 arg5 harg5 arg6 harg6 arg7 harg7 arg8 harg8 arg9 harg9) K := by
  simp only [cc0__fused_kernel_eq_skeleton]; unfold cc0__fused_kernel_skel
  unfold owns
  iintro ⟨⟨%f3, %hf3, H3⟩, ⟨%f4, %hf4, H4⟩, ⟨%f6, %hf6, H6⟩, H8, H9, Hk⟩
  subst hf3 hf4 hf6
  sl_exec (disch := first | exact h1 | exact h2 | exact h3)
  sl_step
  iapply Hk
  isplitl [H3]
  · iexists f3; isplitr; · ipureintro; rfl
    iexact H3
  isplitl [H4]
  · iexists f4; isplitr; · ipureintro; rfl
    iexact H4
  isplitl [H6]
  · iexists f6; isplitr; · ipureintro; rfl
    iexact H6
  isplitl [H8]; · iexact H8
  simp only [View.readAt_eq_ld, View.ld_unit_zero (S := S400x10000) off0, View.ld_unit_zero (S := S10000x16) off0,
    View.ld_unit_zero (S := S1x16) off0, View.ld_unit_zero (S := S16x7) off0]
  iexact H9

set_option maxHeartbeats 1000000 in
/-- Points 26 to 50: the stripe's 400 rows of L · S2 + b2 are stored over the whole result block; the second scratch is
    read and left as it was. -/
theorem sound_last (c : Dev nD) (i : grid0.Coords) (h1 : ¬ cond1 i) (h2 : ¬ k0_cond2 i = 1#1) (h3 : k0_cond3 i = 1#1)
    (arg1 : Memref sig .tc .vmem S10000x128 .f32) (harg1 : arg1.IsWhole) (arg2 : Memref sig .tc .vmem S128x16 .f32) (harg2 : arg2.IsWhole) (arg3 : Memref sig .tc .vmem S1x16 .f32) (harg3 : arg3.IsWhole) (arg4 : Memref sig .tc .vmem S16x7 .f32) (harg4 : arg4.IsWhole) (arg5 : Memref sig .tc .vmem S1x7 .f32) (harg5 : arg5.IsWhole) (arg6 : Memref sig .tc .vmem S400x10000 .f32) (harg6 : arg6.IsWhole) (arg7 : Memref sig .tc .vmem S400x7 .f32) (harg7 : arg7.IsWhole) (arg8 : Memref sig .tc .vmem S10000x16 .f32) (harg8 : arg8.IsWhole) (arg9 : Memref sig .tc .vmem S10000x7 .f32) (harg9 : arg9.IsWhole)
    (x5 : Vec F S1x7 .f32) (x6 : Vec F S400x10000 .f32)
    (g1 : Buf (Elt F) (arg9.view.loc (c : Thread nD τ))) (K : PUnit → sProp 𝕄) :
    iprop(owns (c : Thread nD τ) arg5 fullShare x5 ∗ owns (c : Thread nD τ) arg6 fullShare x6 ∗ (∃ d, owns (c : Thread nD τ) arg7 fullShare d)
        ∗ (arg9.view.loc (c : Thread nD τ) ↦[arg9.view.set]{fullShare} g1)
        ∗ (iprop(owns (c : Thread nD τ) arg5 fullShare x5 ∗ owns (c : Thread nD τ) arg6 fullShare x6
            ∗ owns (c : Thread nD τ) arg7 fullShare (k0_pay3 x6 (arg9.view.read (Elt F) g1) x5)
            ∗ (arg9.view.loc (c : Thread nD τ) ↦[arg9.view.set]{fullShare} g1)) -∗ K ⟨⟩))
      ⊢ wp frame (wpE (defs₀ (F := F)) Variants.none c none) Set.univ (cc0__fused_kernel i arg1 harg1 arg2 harg2 arg3 harg3 arg4 harg4 arg5 harg5 arg6 harg6 arg7 harg7 arg8 harg8 arg9 harg9) K := by
  simp only [cc0__fused_kernel_eq_skeleton]; unfold cc0__fused_kernel_skel
  unfold owns
  iintro ⟨⟨%f5, %hf5, H5⟩, ⟨%f6, %hf6, H6⟩, ⟨%d7, %f7, -, H7⟩, H9, Hk⟩
  subst hf5 hf6
  sl_exec (disch := first | exact h1 | exact h2 | exact h3)
  sl_step
  iapply Hk
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [View.read_writes_eq_canon _ _ _ (cover_o _), View.canon_unit_zero off0, View.readAt_eq_ld, View.readAt_eq_ld,
      View.readAt_eq_ld, View.ld_unit_zero off0, View.ld_unit_zero off0, View.ld_unit_zero off0]
  iexact H9

end Cert.Proof.K

end
-- ==== Proof.KData.lean ====
import proofs.«110868_g70901320122454_cont_9to1_m_1154_4_alg».proof.Proof.Gen.Kernel.Frame
import proofs.«110868_g70901320122454_cont_9to1_m_1154_4_alg».proof.Proof.Gen.Kernel.Skeleton
import proofs.«110868_g70901320122454_cont_9to1_m_1154_4_alg».proof.Proof.KBody
import Idealize.ShloMosaic.Lib.Pipeline.Value
import Idealize.ShloMosaic.Lib.ValueIdx
import Idealize.ShloMosaic.Lib.WritesUnit

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf ΦA)

variable {F : FTy → Type} [FloatOps F]
local notation "𝕄" => MT nD τ sig Unit (Elt F) ℕ (UR sig nD τ) ℕ

open Idealize.ShloMosaic.ValueIdx (ix2 idx2_lt0)

variable (m : (ℓ : Loc nD τ sig) → Buf (Elt F) ℓ) (ρ : Dev nD → PrngReg)

/-! ## What the two scratch buffers carry from point to point

Every window's block at a point is named at its literal type. The first scratch holds S1 = X · W1 from point 0 on.
The second scratch holds, after point t of the middle phase, the rows below 400 t of S2, where row r of S2 is formed
at point r / 400 + 1 from that point's stripe of L, from S1, b1 and W2. The result's block at a point of the last phase
is that point's stripe of L times the whole S2, plus b2. -/

abbrev xblk (c : Dev nD) (t : Fin cfg0.N) : Vec F S10000x128 .f32 := iblk m c 0 t
abbrev w1blk (c : Dev nD) (t : Fin cfg0.N) : Vec F S128x16 .f32 := iblk m c 1 t
abbrev b1blk (c : Dev nD) (t : Fin cfg0.N) : Vec F S1x16 .f32 := iblk m c 2 t
abbrev w2blk (c : Dev nD) (t : Fin cfg0.N) : Vec F S16x7 .f32 := iblk m c 3 t
abbrev b2blk (c : Dev nD) (t : Fin cfg0.N) : Vec F S1x7 .f32 := iblk m c 4 t
abbrev lblk (c : Dev nD) (t : Fin cfg0.N) : Vec F S400x10000 .f32 := iblk m c 5 t

/-- The grid's first point. -/
abbrev t0 : Fin cfg0.N := ⟨0, by decide⟩

/-- The first support, as point 0 forms it. -/
def S1val (c : Dev nD) : Vec F S10000x16 .f32 := k0_pay1 (xblk m c t0) (w1blk m c t0)

/-- The grid point that forms the stripe holding row `r` of the second support. -/
def stripePt (r : Fin 10000) : Fin cfg0.N :=
  ⟨r.val / 400 + 1, by have := r.isLt; show _ < grid0.N; rw [N_0]; omega⟩

/-- Row `r`'s place within its stripe. -/
def stripeRow (r : Fin 10000) : Fin 400 := ⟨r.val % 400, Nat.mod_lt _ (by decide)⟩

/-- The second support, each row as its stripe's point forms it. -/
def S2val (c : Dev nD) : Vec F S10000x7 .f32 := fun y =>
  k0_pay2 (lblk m c (stripePt (y 0))) (S1val m c) (b1blk m c (stripePt (y 0))) (w2blk m c (stripePt (y 0)))
    (ix2 (stripeRow (y 0)) (y 1))

/-- The result's block at a point of the last phase. -/
def outBlk (c : Dev nD) (t : Fin cfg0.N) : Vec F S400x7 .f32 := k0_pay3 (lblk m c t) (S2val m c) (b2blk m c t)

/-- What the scratch buffers hold before point `n`: from point 1 on the first holds S1; the second holds S2 on the rows
    below 400 (n - 1). -/
def Carried (c : Dev nD) (n : ℕ) (A : Vec F S10000x16 .f32) (B : Vec F S10000x7 .f32) : Prop :=
  (1 ≤ n → A = S1val m c) ∧ ∀ y : S10000x7.Idx, (y 0).val < 400 * (n - 1) → B y = S2val m c y

theorem carried_zero (c : Dev nD) (A : Vec F S10000x16 .f32) (B : Vec F S10000x7 .f32) : Carried m c 0 A B :=
  ⟨fun h => absurd h (by decide), fun y h => absurd h (Nat.not_lt_zero _)⟩

/-- After point 0 the first scratch holds S1; nothing is asked of the second yet. -/
theorem carried_first (c : Dev nD) (n : ℕ) (hn : n = 0) (A' : Vec F S10000x16 .f32) (B : Vec F S10000x7 .f32)
    (hA' : A' = S1val m c) : Carried m c (n + 1) A' B := by
  subst hn
  exact ⟨fun _ => hA', fun y h => absurd h (Nat.not_lt_zero _)⟩

/-- In the last phase nothing changes, and the second scratch is the whole S2. -/
theorem carried_last (c : Dev nD) (n : ℕ) (hn : 26 ≤ n) (A : Vec F S10000x16 .f32) (B : Vec F S10000x7 .f32)
    (hc : Carried m c n A B) : Carried m c (n + 1) A B :=
  ⟨fun _ => hc.1 (by omega), fun y _ => hc.2 y (by have := idx2_lt0 y; omega)⟩

theorem s2_full (c : Dev nD) (n : ℕ) (hn : 26 ≤ n) (A : Vec F S10000x16 .f32) (B : Vec F S10000x7 .f32)
    (hc : Carried m c n A B) : B = S2val m c :=
  funext fun y => hc.2 y (by have := idx2_lt0 y; omega)

/-- The scratch buffers as the body is handed them. -/
abbrev scr0 : Memref sig .tc .vmem S10000x16 .f32 := Memref.whole cc0_scratch0
abbrev scr1 : Memref sig .tc .vmem S10000x7 .f32 := Memref.whole cc0_scratch1

/-- A middle point stores its stripe's rows: the rows below stay, the stripe's rows are the point's payload, which is S2
    there. -/
theorem carried_mid (c : Dev nD) (t : Fin cfg0.N) (h1 : 1 ≤ t.val) (h2 : t.val ≤ 25)
    (g1 : Buf (Elt F) (scr1.view.loc (c : Thread nD τ))) (A : Vec F S10000x16 .f32)
    (hc : Carried m c t.val A (scr1.view.read (Elt F) g1))
    (inb : ∀ a, (k0_off1 (grid0.coords t)) a + S400x7.size a ≤ S10000x7.size a) :
    Carried m c (t.val + 1) A (scr1.view.read (Elt F) (scr1.view.writes (Elt F) g1
      [⟨Rect.unit (s := S10000x7) (k0_off1 (grid0.coords t)) S400x7.size inb,
        k0_pay2 (lblk m c t) A (b1blk m c t) (w2blk m c t)⟩])) := by
  refine ⟨fun _ => hc.1 h1, fun y hy => ?_⟩
  have hy0 := idx2_lt0 y
  by_cases hlt : (y 0).val < 400 * (t.val - 1)
  · rw [View.read_writes_cons_rows_of_not_mem scr1.view g1 inb _ [] y (off1_eq t h1 h2) (W := 400) rfl (Or.inl hlt),
      View.writes_nil]
    exact hc.2 y hlt
  · have hA := hc.1 h1
    subst hA
    have hp : stripePt (y 0) = t := Fin.ext (by show (y 0).val / 400 + 1 = t.val; omega)
    rw [View.read_writes_cons_rows_of_mem scr1.view g1 inb _ [] y (ix2 (stripeRow (y 0)) (y 1)) (off1_eq t h1 h2)
      (by show (y 0).val = 400 * (t.val - 1) + (y 0).val % 400; omega) rfl]
    unfold S2val
    rw [hp]

/-! ## The proof data -/

/-- The invariant before point `n`: the two scratch buffers at contents that carry what the earlier points formed, and
    the generator register at anything. -/
def Inv (c : Dev nD) (n : ℕ) : sProp 𝕄 :=
  iprop(∃ (g0 : Buf (Elt F) (scr0.view.loc (c : Thread nD τ))) (g1 : Buf (Elt F) (scr1.view.loc (c : Thread nD τ))),
    ⌜Carried m c n (scr0.view.read (Elt F) g0) (scr1.view.read (Elt F) g1)⌝
    ∗ (scr0.view.loc (c : Thread nD τ) ↦[scr0.view.set]{fullShare} g0)
    ∗ (scr1.view.loc (c : Thread nD τ) ↦[scr1.view.set]{fullShare} g1)
    ∗ ∃ r, prngReg c r)

/-- The proof data of the one pipeline on core `c`: the arrays as the region finds them; after the body each input's
    buffer at its block and, in the last phase, the result's at that point's block of the result; the invariant above;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk m c t
  Φ t := Inv m c t.val
  q _ := fullShare
  owed _ := 0

theorem A_eq (c : Dev nD) (w : Fin cfg0.W) : (dats m 0 c).A w = V m c (Pipeline.arrRef spec0 w) := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outBlk m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

theorem phi_cast (c : Dev nD) (t : Fin cfg0.N) : (dats m 0 c).Φ t.castSucc = Inv m c t.val := rfl
theorem phi_succ (c : Dev nD) (t : Fin cfg0.N) : (dats m 0 c).Φ t.succ = Inv m c (t.val + 1) := rfl

/-- The scratch buffers as the class invariant holds them and as the body's run names them: one points-to each. -/
theorem scr0_eq (c : Dev nD) (f : Buf (Elt F) ((c : Thread nD τ).loc cc0_scratch0)) :
    (scr0.view.loc (c : Thread nD τ) ↦[scr0.view.set]{fullShare} f : sProp 𝕄)
      = ((c : Thread nD τ).loc cc0_scratch0) ↦{fullShare} f := by
  simp only [Memref.view_whole, View.set_whole]
theorem scr1_eq (c : Dev nD) (f : Buf (Elt F) ((c : Thread nD τ).loc cc0_scratch1)) :
    (scr1.view.loc (c : Thread nD τ) ↦[scr1.view.set]{fullShare} f : sProp 𝕄)
      = ((c : Thread nD τ).loc cc0_scratch1) ↦{fullShare} f := by
  simp only [Memref.view_whole, View.set_whole]

/-- Before point 0 the scratch holds anything, and that is the invariant there; -/
theorem inv_in (c : Dev nD) : (ΦA spec0 c : sProp 𝕄) ⊢ (dats m 0 c).Φ 0 := by
  show (ΦA spec0 c : sProp 𝕄) ⊢ Inv m c 0
  unfold ΦA Inv
  rw [scopedRest0_eq]
  iintro ⟨⟨⟨%g0, H0⟩, ⟨%g1, H1⟩⟩, HR⟩
  iexists g0; iexists g1
  isplitr
  · ipureintro; exact carried_zero m c _ _
  isplitl [H0]
  · rw [scr0_eq]; iexact H0
  isplitl [H1]
  · rw [scr1_eq]; iexact H1
  iexact HR

/-- after the last point what it holds is forgotten. -/
theorem inv_out (c : Dev nD) : (dats m 0 c).Φ (Fin.last cfg0.N) ⊢ (ΦA spec0 c : sProp 𝕄) := by
  show Inv m c (Fin.last cfg0.N).val ⊢ (ΦA spec0 c : sProp 𝕄)
  unfold ΦA Inv
  rw [scopedRest0_eq]
  iintro ⟨%g0, %g1, -, H0, H1, HR⟩
  isplitl [H0 H1]
  · isplitl [H0]
    · iexists g0; rw [← scr0_eq]; iexact H0
    · iexists g1; rw [← scr1_eq]; iexact H1
  iexact HR

end Cert.Proof.K

end
-- ==== Proof.KRun.lean ====
import proofs.«110868_g70901320122454_cont_9to1_m_1154_4_alg».proof.Proof.Gen.Kernel.Frame
import proofs.«110868_g70901320122454_cont_9to1_m_1154_4_alg».proof.Proof.Gen.Kernel.Skeleton
import proofs.«110868_g70901320122454_cont_9to1_m_1154_4_alg».proof.Proof.KData
import Idealize.ShloMosaic.Lib.Pipeline.Value
import Idealize.ShloMosaic.Lib.WritesUnit

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf ΦA)

variable {F : FTy → Type} [FloatOps F]
local notation "𝕄" => MT nD τ sig Unit (Elt F) ℕ (UR sig nD τ) ℕ

variable (m : (ℓ : Loc nD τ sig) → Buf (Elt F) ℓ) (ρ : Dev nD → PrngReg)

/-! ## The body obligation, phase by phase -/

/-- What the body is called with at point `t`: the invariant, the core's tallies, and each window's current staging
    buffer at what it then holds. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it returns at a point of the first two phases: the result's buffer as it was found, -/
def bodyPostIdle (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ d, owns (c : Thread nD τ) (st0_6 t) fullShare ((dats m 0 c).before 6 t d)))

/-- and at a point of the last phase: the result's buffer at the point's block of the result. -/
def bodyPostLive (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 1000000 in
/-- Point 0: the first scratch is handed over at anything and taken back at S1. -/
theorem sound_body_first (c : Dev nD) (t : Fin cfg0.N) (ht : t.val = 0) :
    bodyPre m c t ⊢ wp frame (wpE (defs₀ (F := F)) Variants.none c none) Set.univ (bodyAt0 t) (fun _ => bodyPostIdle m c t) := by
  have htt : t = t0 := Fin.ext ht
  subst htt
  have hc1 : cond1 (grid0.coords t0) := (cond1_iff t0).mpr ht
  have hc2 : ¬ k0_cond2 (grid0.coords t0) = 1#1 := fun h => by have := (cond2_iff t0).mp h; omega
  have hc3 : ¬ k0_cond3 (grid0.coords t0) = 1#1 := fun h => by have := (cond3_iff t0).mp h; omega
  unfold bodyPre bodyPostIdle bodyAt0
  simp only [before0_0, before0_1, before0_2, before0_3, before0_4, before0_5]
  rw [show (dats m 0 c).owesAt () t0.succ = (dats m 0 c).owesAt () t0.castSucc from rfl,
    after0_0, after0_1, after0_2, after0_3, after0_4, after0_5, phi_cast, phi_succ]
  unfold Inv
  iintro ⟨⟨%g0, %g1, %hc, HS0, HS1, HR⟩, Ho, ⟨%d0, H0⟩, ⟨%d1, H1⟩, ⟨%d2, H2⟩, ⟨%d3, H3⟩, ⟨%d4, H4⟩, ⟨%d5, H5⟩, H6⟩
  iapply (sound_first c (grid0.coords t0) hc1 hc2 hc3 _ _ _ _ _ _ _ _ _ _ _ _ _ _ scr0 (Memref.isWhole_whole _) scr1 (Memref.isWhole_whole _)
    (iblk m c 0 t0) (iblk m c 1 t0) g0 _)
  isplitl [H0]; · iexact H0
  isplitl [H1]; · iexact H1
  isplitl [HS0]; · iexact HS0
  iintro ⟨H0, H1, ⟨%g0', %hg0', HS0⟩⟩
  isplitl [HS0 HS1 HR]
  · iexists g0'; iexists g1; isplitr
    · ipureintro; exact carried_first m c t0.val ht _ _ hg0'
    isplitl [HS0]; · iexact HS0
    isplitl [HS1]; · iexact HS1
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 1000000 in
/-- Points 1 to 25: the first scratch is read, the second takes the stripe's rows. -/
theorem sound_body_mid (c : Dev nD) (t : Fin cfg0.N) (h1 : 1 ≤ t.val) (h2 : t.val ≤ 25) :
    bodyPre m c t ⊢ wp frame (wpE (defs₀ (F := F)) Variants.none c none) Set.univ (bodyAt0 t) (fun _ => bodyPostIdle m c t) := by
  have hc1 : ¬ cond1 (grid0.coords t) := fun h => by have := (cond1_iff t).mp h; omega
  have hc2 : k0_cond2 (grid0.coords t) = 1#1 := (cond2_iff t).mpr ⟨h1, h2⟩
  have hc3 : ¬ k0_cond3 (grid0.coords t) = 1#1 := fun h => by have := (cond3_iff t).mp h; omega
  unfold bodyPre bodyPostIdle bodyAt0
  simp only [before0_0, before0_1, before0_2, before0_3, before0_4, before0_5]
  rw [show (dats m 0 c).owesAt () t.succ = (dats m 0 c).owesAt () t.castSucc from rfl,
    after0_0, after0_1, after0_2, after0_3, after0_4, after0_5, phi_cast, phi_succ]
  unfold Inv
  iintro ⟨⟨%g0, %g1, %hc, HS0, HS1, HR⟩, Ho, ⟨%d0, H0⟩, ⟨%d1, H1⟩, ⟨%d2, H2⟩, ⟨%d3, H3⟩, ⟨%d4, H4⟩, ⟨%d5, H5⟩, H6⟩
  iapply (sound_mid c (grid0.coords t) hc1 hc2 hc3 _ _ _ _ _ _ _ _ _ _ _ _ _ _ scr0 (Memref.isWhole_whole _) scr1 (Memref.isWhole_whole _)
    (iblk m c 2 t) (iblk m c 3 t) (iblk m c 5 t) g0 g1 _)
  isplitl [H2]; · iexact H2
  isplitl [H3]; · iexact H3
  isplitl [H5]; · iexact H5
  isplitl [HS0]; · iexact HS0
  isplitl [HS1]; · iexact HS1
  iintro ⟨H2, H3, H5, HS0, HS1⟩
  isplitl [HS0 HS1 HR]
  · iexists g0; iexists _; isplitr
    swap
    · isplitl [HS0]; · iexact HS0
      isplitl [HS1]; · iexact HS1
      iexact HR
    ipureintro; exact carried_mid m c t h1 h2 g1 _ hc _
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 1000000 in
/-- Points 26 to 50: the second scratch, by now the whole S2, is read; the result's buffer takes the point's block. -/
theorem sound_body_last (c : Dev nD) (t : Fin cfg0.N) (h : 26 ≤ t.val) :
    bodyPre m c t ⊢ wp frame (wpE (defs₀ (F := F)) Variants.none c none) Set.univ (bodyAt0 t) (fun _ => bodyPostLive m c t) := by
  have hc1 : ¬ cond1 (grid0.coords t) := fun h' => by have := (cond1_iff t).mp h'; omega
  have hc2 : ¬ k0_cond2 (grid0.coords t) = 1#1 := fun h' => by have := (cond2_iff t).mp h'; omega
  have hc3 : k0_cond3 (grid0.coords t) = 1#1 := (cond3_iff t).mpr h
  unfold bodyPre bodyPostLive bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6, phi_cast, phi_succ]
  unfold Inv
  iintro ⟨⟨%g0, %g1, %hc, HS0, HS1, HR⟩, Ho, ⟨%d0, H0⟩, ⟨%d1, H1⟩, ⟨%d2, H2⟩, ⟨%d3, H3⟩, ⟨%d4, H4⟩, ⟨%d5, H5⟩, ⟨%d6, H6⟩⟩
  have hS2 : scr1.view.read (Elt F) g1 = S2val m c := s2_full m c t.val h _ _ hc
  iapply (sound_last c (grid0.coords t) hc1 hc2 hc3 _ _ _ _ _ _ _ _ _ _ _ _ _ _ scr0 (Memref.isWhole_whole _) scr1 (Memref.isWhole_whole _)
    (iblk m c 4 t) (iblk m c 5 t) g1 _)
  isplitl [H4]; · iexact H4
  isplitl [H5]; · iexact H5
  isplitl [H6]; · iexists _; iexact H6
  isplitl [HS1]; · iexact HS1
  iintro ⟨H4, H5, H6, HS1⟩
  isplitl [HS0 HS1 HR]
  · iexists g0; iexists g1; isplitr
    · ipureintro; exact carried_last m c t.val h _ _ hc
    isplitl [HS0]; · iexact HS0
    isplitl [HS1]; · iexact HS1
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold outBlk
  rw [← hS2]
  iexact H6

/-- The result window's idleness, as the obligation spells it once its configuration is unfolded. -/
theorem idle0_6_true (t : Fin cfg0.N) (h : t.val ≤ 25) : idle0 6 (grid0.coords t) = true := idle6_true t h
theorem idle0_6_false (t : Fin cfg0.N) (h : 26 ≤ t.val) : idle0 6 (grid0.coords t) = false := idle6_false t h

set_option maxHeartbeats 4000000 in
/-- The library's body obligation, at every point: the result window is idle and not written back through point 25, live
    and written back from point 26 on. -/
theorem body_obligation (c : Dev nD) : BodyObligation (dats (F := F) m 0 c) (defs₀ (F := F)) Variants.none () Set.univ := fun t => by
  rw [bigSep_W0, bigSep_W0]
  by_cases h : t.val ≤ 25
  · simp only [idle0_6_true t h, flush6_false t h]
    by_cases h0 : t.val = 0
    · exact sound_body_first m c t h0
    · exact sound_body_mid m c t (by omega) h
  · simp only [idle0_6_false t (by omega)]
    exact sound_body_last m c t (by omega)

/-! ## The run and the frame -/

set_option backward.isDefEq.respectTransparency.types false in
/-- Every weakly fair execution of @main terminates, and every final state has every array of the pipeline at what the
    proof data computes and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl)
    (hin := inv_in m) (hout := inv_out m)

/-- The program runs, faults nowhere and leaves its six argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Proof.K

end
-- ==== Proof.KIBody.lean ====
import proofs.«110868_g70901320122454_cont_9to1_m_1154_4_alg».proof.Proof.KRun
import proofs.«110868_g70901320122454_cont_9to1_m_1154_4_alg».proof.Proof.Gen.KernelIdeal.Frame
import proofs.«110868_g70901320122454_cont_9to1_m_1154_4_alg».proof.Proof.Gen.KernelIdeal.Skeleton
import Idealize.ShloMosaic.Lib.Pipeline.Value
import Idealize.ShloMosaic.Lib.WritesUnit

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf ΦA)

variable {F : FTy → Type} [FloatOps F]
local notation "𝕄" => MT nD τ sig Unit (Elt F) ℕ (UR sig nD τ) ℕ

/-! ## Which of the three phases a grid point is in

The grid has 51 points. Point 0 forms the first support X · W1 in the first scratch; points 1 to 25 each form one
400-row stripe of the second support max (L · S1 + b1) 0 · W2 in the second scratch; points 26 to 50 each write
one 400-row stripe of the result L · S2 + b2. The body tests the grid coordinate three times; the three tests are
decided here over the grid, once. -/

/-- The first test (the coordinate is 0), as the body computes it. -/
abbrev cond1 (i : grid0.Coords) : Prop :=
  Scalar.cmpi .ne (Scalar.extui (Scalar.cmpi .eq (BitVec.ofNat 32 (i 0).val) 0#32)) 0#32 = 1#1

theorem cond1_iff : ∀ t : Fin cfg0.N, cond1 (grid0.coords t) ↔ t.val = 0 :=
  (by decide +kernel : ∀ t : Fin grid0.N, cond1 (grid0.coords t) ↔ t.val = 0)
theorem cond2_iff : ∀ t : Fin cfg0.N, k0_cond2 (grid0.coords t) = 1#1 ↔ (1 ≤ t.val ∧ t.val ≤ 25) :=
  (by decide +kernel : ∀ t : Fin grid0.N, k0_cond2 (grid0.coords t) = 1#1 ↔ (1 ≤ t.val ∧ t.val ≤ 25))
theorem cond3_iff : ∀ t : Fin cfg0.N, k0_cond3 (grid0.coords t) = 1#1 ↔ 26 ≤ t.val :=
  (by decide +kernel : ∀ t : Fin grid0.N, k0_cond3 (grid0.coords t) = 1#1 ↔ 26 ≤ t.val)

/-- At a middle point t the stripe stored is rows [400 (t - 1), 400 t) and every column. -/
theorem off1_eq : ∀ t : Fin cfg0.N, 1 ≤ t.val → t.val ≤ 25 → k0_off1 (grid0.coords t) = ![400 * (t.val - 1), 0] :=
  (by decide +kernel : ∀ t : Fin grid0.N, 1 ≤ t.val → t.val ≤ 25 → k0_off1 (grid0.coords t) = ![400 * (t.val - 1), 0])

/-- The result window's block is written back exactly at the points of the last phase, -/
theorem flush6_iff : ∀ t : Fin cfg0.N, (cfg0.win 6).flush t = true ↔ 26 ≤ t.val :=
  (by decide +kernel : ∀ t : Fin grid0.N, win0_6.flush t = true ↔ 26 ≤ t.val)

/-- and the body stores nothing into it before. -/
theorem idle6_eq (t : Fin cfg0.N) : cfg0.idle 6 (cfg0.grid.coords t) = !(k0_cond3 (grid0.coords t) == 1#1) := rfl

theorem idle6_true (t : Fin cfg0.N) (h : t.val ≤ 25) : cfg0.idle 6 (cfg0.grid.coords t) = true := by
  rw [idle6_eq]
  have : ¬ k0_cond3 (grid0.coords t) = 1#1 := fun hc => by have := (cond3_iff t).mp hc; omega
  simp [this]

theorem idle6_false (t : Fin cfg0.N) (h : 26 ≤ t.val) : cfg0.idle 6 (cfg0.grid.coords t) = false := by
  rw [idle6_eq]
  have : k0_cond3 (grid0.coords t) = 1#1 := (cond3_iff t).mpr h
  simp [this]

theorem flush6_false (t : Fin cfg0.N) (h : t.val ≤ 25) : (cfg0.win 6).flush t = false := by
  cases hf : (cfg0.win 6).flush t
  · rfl
  · have := (flush6_iff t).mp hf; omega

/-- The whole-buffer rectangle's offsets are zero. -/
theorem off0 : (![0, 0] : Fin 2 → ℕ) = fun _ => 0 := funext fun a => by fin_cases a <;> rfl

/-- One store through the whole-buffer rectangle covers every index of the first scratch, -/
theorem cover_s1 (w : Vec F S10000x16 .f32) (y : S10000x16.Idx) :
    ∃ pc ∈ ([⟨Rect.unit (s := S10000x16) ![0, 0] S10000x16.size inb_S10000x16_S10000x16_0_0, w⟩] : List (View.Piece (Elt F) S10000x16 .f32)), y ∈ pc.1.set :=
  View.cover_of_tiled [⟨Rect.unit (s := S10000x16) ![0, 0] S10000x16.size inb_S10000x16_S10000x16_0_0, w⟩] S10000x16.size (by rfl) y

/-- and of the result's staging block. -/
theorem cover_o (w : Vec F S400x7 .f32) (y : S400x7.Idx) :
    ∃ pc ∈ ([⟨Rect.unit (s := S400x7) ![0, 0] S400x7.size inb_S400x7_S400x7_0_0, w⟩] : List (View.Piece (Elt F) S400x7 .f32)), y ∈ pc.1.set :=
  View.cover_of_tiled [⟨Rect.unit (s := S400x7) ![0, 0] S400x7.size inb_S400x7_S400x7_0_0, w⟩] S400x7.size (by rfl) y

/-! ## The body's triple, phase by phase

Each over the kernel's own memref parameters and any continuation; the windows and scratch a phase does not touch are
not mentioned. -/

set_option maxHeartbeats 1000000 in
/-- Point 0: X · W1 is stored over the whole first scratch. -/
theorem sound_first (c : Dev nD) (i : grid0.Coords) (h1 : cond1 i) (h2 : ¬ k0_cond2 i = 1#1) (h3 : ¬ k0_cond3 i = 1#1)
    (arg1 : Memref sig .tc .vmem S10000x128 .f32) (harg1 : arg1.IsWhole) (arg2 : Memref sig .tc .vmem S128x16 .f32) (harg2 : arg2.IsWhole) (arg3 : Memref sig .tc .vmem S1x16 .f32) (harg3 : arg3.IsWhole) (arg4 : Memref sig .tc .vmem S16x7 .f32) (harg4 : arg4.IsWhole) (arg5 : Memref sig .tc .vmem S1x7 .f32) (harg5 : arg5.IsWhole) (arg6 : Memref sig .tc .vmem S400x10000 .f32) (harg6 : arg6.IsWhole) (arg7 : Memref sig .tc .vmem S400x7 .f32) (harg7 : arg7.IsWhole) (arg8 : Memref sig .tc .vmem S10000x16 .f32) (harg8 : arg8.IsWhole) (arg9 : Memref sig .tc .vmem S10000x7 .f32) (harg9 : arg9.IsWhole)
    (x1 : Vec F S10000x128 .f32) (x2 : Vec F S128x16 .f32)
    (g0 : Buf (Elt F) (arg8.view.loc (c : Thread nD τ))) (K : PUnit → sProp 𝕄) :
    iprop(owns (c : Thread nD τ) arg1 fullShare x1 ∗ owns (c : Thread nD τ) arg2 fullShare x2
        ∗ (arg8.view.loc (c : Thread nD τ) ↦[arg8.view.set]{fullShare} g0)
        ∗ (iprop(owns (c : Thread nD τ) arg1 fullShare x1 ∗ owns (c : Thread nD τ) arg2 fullShare x2
            ∗ (∃ g0', ⌜arg8.view.read (Elt F) g0' = k0_pay1 x1 x2⌝ ∗ (arg8.view.loc (c : Thread nD τ) ↦[arg8.view.set]{fullShare} g0'))) -∗ K ⟨⟩))
      ⊢ wp frame (wpE (defs₀ (F := F)) Variants.none c none) Set.univ (cc0__fused_kernel i arg1 harg1 arg2 harg2 arg3 harg3 arg4 harg4 arg5 harg5 arg6 harg6 arg7 harg7 arg8 harg8 arg9 harg9) K := by
  simp only [cc0__fused_kernel_eq_skeleton]; unfold cc0__fused_kernel_skel
  unfold owns
  iintro ⟨⟨%f1, %hf1, H1⟩, ⟨%f2, %hf2, H2⟩, H8, Hk⟩
  subst hf1 hf2
  sl_exec (disch := first | exact h1 | exact h2 | exact h3)
  sl_step
  iapply Hk
  isplitl [H1]
  · iexists f1; isplitr; · ipureintro; rfl
    iexact H1
  isplitl [H2]
  · iexists f2; isplitr; · ipureintro; rfl
    iexact H2
  iexists _; isplitr
  swap; · iexact H8
  ipureintro
  rw [View.read_writes_eq_canon _ _ _ (cover_s1 _), View.canon_unit_zero off0, View.readAt_eq_ld, View.readAt_eq_ld,
    View.ld_unit_zero off0, View.ld_unit_zero off0]

set_option maxHeartbeats 1000000 in
/-- Points 1 to 25: the stripe's 400 rows of max (L · S1 + b1) 0 · W2 are stored into the second scratch at the
    stripe's rows; the first scratch is read and left as it was. -/
theorem sound_mid (c : Dev nD) (i : grid0.Coords) (h1 : ¬ cond1 i) (h2 : k0_cond2 i = 1#1) (h3 : ¬ k0_cond3 i = 1#1)
    (arg1 : Memref sig .tc .vmem S10000x128 .f32) (harg1 : arg1.IsWhole) (arg2 : Memref sig .tc .vmem S128x16 .f32) (harg2 : arg2.IsWhole) (arg3 : Memref sig .tc .vmem S1x16 .f32) (harg3 : arg3.IsWhole) (arg4 : Memref sig .tc .vmem S16x7 .f32) (harg4 : arg4.IsWhole) (arg5 : Memref sig .tc .vmem S1x7 .f32) (harg5 : arg5.IsWhole) (arg6 : Memref sig .tc .vmem S400x10000 .f32) (harg6 : arg6.IsWhole) (arg7 : Memref sig .tc .vmem S400x7 .f32) (harg7 : arg7.IsWhole) (arg8 : Memref sig .tc .vmem S10000x16 .f32) (harg8 : arg8.IsWhole) (arg9 : Memref sig .tc .vmem S10000x7 .f32) (harg9 : arg9.IsWhole)
    (x3 : Vec F S1x16 .f32) (x4 : Vec F S16x7 .f32) (x6 : Vec F S400x10000 .f32)
    (g0 : Buf (Elt F) (arg8.view.loc (c : Thread nD τ))) (g1 : Buf (Elt F) (arg9.view.loc (c : Thread nD τ)))
    (K : PUnit → sProp 𝕄) :
    iprop(owns (c : Thread nD τ) arg3 fullShare x3 ∗ owns (c : Thread nD τ) arg4 fullShare x4 ∗ owns (c : Thread nD τ) arg6 fullShare x6
        ∗ (arg8.view.loc (c : Thread nD τ) ↦[arg8.view.set]{fullShare} g0)
        ∗ (arg9.view.loc (c : Thread nD τ) ↦[arg9.view.set]{fullShare} g1)
        ∗ (iprop(owns (c : Thread nD τ) arg3 fullShare x3 ∗ owns (c : Thread nD τ) arg4 fullShare x4 ∗ owns (c : Thread nD τ) arg6 fullShare x6
            ∗ (arg8.view.loc (c : Thread nD τ) ↦[arg8.view.set]{fullShare} g0)
            ∗ (arg9.view.loc (c : Thread nD τ) ↦[arg9.view.set]{fullShare}
                arg9.view.writes (Elt F) g1 [⟨Rect.unit (s := S10000x7) (k0_off1 i) S400x7.size (k0_off1_inb i h2),
                  k0_pay2 x6 (arg8.view.read (Elt F) g0) x3 x4⟩])) -∗ K ⟨⟩))
      ⊢ wp frame (wpE (defs₀ (F := F)) Variants.none c none) Set.univ (cc0__fused_kernel i arg1 harg1 arg2 harg2 arg3 harg3 arg4 harg4 arg5 harg5 arg6 harg6 arg7 harg7 arg8 harg8 arg9 harg9) K := by
  simp only [cc0__fused_kernel_eq_skeleton]; unfold cc0__fused_kernel_skel
  unfold owns
  iintro ⟨⟨%f3, %hf3, H3⟩, ⟨%f4, %hf4, H4⟩, ⟨%f6, %hf6, H6⟩, H8, H9, Hk⟩
  subst hf3 hf4 hf6
  sl_exec (disch := first | exact h1 | exact h2 | exact h3)
  sl_step
  iapply Hk
  isplitl [H3]
  · iexists f3; isplitr; · ipureintro; rfl
    iexact H3
  isplitl [H4]
  · iexists f4; isplitr; · ipureintro; rfl
    iexact H4
  isplitl [H6]
  · iexists f6; isplitr; · ipureintro; rfl
    iexact H6
  isplitl [H8]; · iexact H8
  simp only [View.readAt_eq_ld, View.ld_unit_zero (S := S400x10000) off0, View.ld_unit_zero (S := S10000x16) off0,
    View.ld_unit_zero (S := S1x16) off0, View.ld_unit_zero (S := S16x7) off0]
  iexact H9

set_option maxHeartbeats 1000000 in
/-- Points 26 to 50: the stripe's 400 rows of L · S2 + b2 are stored over the whole result block; the second scratch is
    read and left as it was. -/
theorem sound_last (c : Dev nD) (i : grid0.Coords) (h1 : ¬ cond1 i) (h2 : ¬ k0_cond2 i = 1#1) (h3 : k0_cond3 i = 1#1)
    (arg1 : Memref sig .tc .vmem S10000x128 .f32) (harg1 : arg1.IsWhole) (arg2 : Memref sig .tc .vmem S128x16 .f32) (harg2 : arg2.IsWhole) (arg3 : Memref sig .tc .vmem S1x16 .f32) (harg3 : arg3.IsWhole) (arg4 : Memref sig .tc .vmem S16x7 .f32) (harg4 : arg4.IsWhole) (arg5 : Memref sig .tc .vmem S1x7 .f32) (harg5 : arg5.IsWhole) (arg6 : Memref sig .tc .vmem S400x10000 .f32) (harg6 : arg6.IsWhole) (arg7 : Memref sig .tc .vmem S400x7 .f32) (harg7 : arg7.IsWhole) (arg8 : Memref sig .tc .vmem S10000x16 .f32) (harg8 : arg8.IsWhole) (arg9 : Memref sig .tc .vmem S10000x7 .f32) (harg9 : arg9.IsWhole)
    (x5 : Vec F S1x7 .f32) (x6 : Vec F S400x10000 .f32)
    (g1 : Buf (Elt F) (arg9.view.loc (c : Thread nD τ))) (K : PUnit → sProp 𝕄) :
    iprop(owns (c : Thread nD τ) arg5 fullShare x5 ∗ owns (c : Thread nD τ) arg6 fullShare x6 ∗ (∃ d, owns (c : Thread nD τ) arg7 fullShare d)
        ∗ (arg9.view.loc (c : Thread nD τ) ↦[arg9.view.set]{fullShare} g1)
        ∗ (iprop(owns (c : Thread nD τ) arg5 fullShare x5 ∗ owns (c : Thread nD τ) arg6 fullShare x6
            ∗ owns (c : Thread nD τ) arg7 fullShare (k0_pay3 x6 (arg9.view.read (Elt F) g1) x5)
            ∗ (arg9.view.loc (c : Thread nD τ) ↦[arg9.view.set]{fullShare} g1)) -∗ K ⟨⟩))
      ⊢ wp frame (wpE (defs₀ (F := F)) Variants.none c none) Set.univ (cc0__fused_kernel i arg1 harg1 arg2 harg2 arg3 harg3 arg4 harg4 arg5 harg5 arg6 harg6 arg7 harg7 arg8 harg8 arg9 harg9) K := by
  simp only [cc0__fused_kernel_eq_skeleton]; unfold cc0__fused_kernel_skel
  unfold owns
  iintro ⟨⟨%f5, %hf5, H5⟩, ⟨%f6, %hf6, H6⟩, ⟨%d7, %f7, -, H7⟩, H9, Hk⟩
  subst hf5 hf6
  sl_exec (disch := first | exact h1 | exact h2 | exact h3)
  sl_step
  iapply Hk
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [View.read_writes_eq_canon _ _ _ (cover_o _), View.canon_unit_zero off0, View.readAt_eq_ld, View.readAt_eq_ld,
      View.readAt_eq_ld, View.ld_unit_zero off0, View.ld_unit_zero off0, View.ld_unit_zero off0]
  iexact H9

end Cert.Proof.KI

end
-- ==== Proof.KIData.lean ====
import proofs.«110868_g70901320122454_cont_9to1_m_1154_4_alg».proof.Proof.KRun
import proofs.«110868_g70901320122454_cont_9to1_m_1154_4_alg».proof.Proof.Gen.KernelIdeal.Frame
import proofs.«110868_g70901320122454_cont_9to1_m_1154_4_alg».proof.Proof.Gen.KernelIdeal.Skeleton
import proofs.«110868_g70901320122454_cont_9to1_m_1154_4_alg».proof.Proof.KIBody
import Idealize.ShloMosaic.Lib.Pipeline.Value
import Idealize.ShloMosaic.Lib.ValueIdx
import Idealize.ShloMosaic.Lib.WritesUnit

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf ΦA)

variable {F : FTy → Type} [FloatOps F]
local notation "𝕄" => MT nD τ sig Unit (Elt F) ℕ (UR sig nD τ) ℕ

open Idealize.ShloMosaic.ValueIdx (ix2 idx2_lt0)

variable (m : (ℓ : Loc nD τ sig) → Buf (Elt F) ℓ) (ρ : Dev nD → PrngReg)

/-! ## What the two scratch buffers carry from point to point

Every window's block at a point is named at its literal type. The first scratch holds S1 = X · W1 from point 0 on.
The second scratch holds, after point t of the middle phase, the rows below 400 t of S2, where row r of S2 is formed
at point r / 400 + 1 from that point's stripe of L, from S1, b1 and W2. The result's block at a point of the last phase
is that point's stripe of L times the whole S2, plus b2. -/

abbrev xblk (c : Dev nD) (t : Fin cfg0.N) : Vec F S10000x128 .f32 := iblk m c 0 t
abbrev w1blk (c : Dev nD) (t : Fin cfg0.N) : Vec F S128x16 .f32 := iblk m c 1 t
abbrev b1blk (c : Dev nD) (t : Fin cfg0.N) : Vec F S1x16 .f32 := iblk m c 2 t
abbrev w2blk (c : Dev nD) (t : Fin cfg0.N) : Vec F S16x7 .f32 := iblk m c 3 t
abbrev b2blk (c : Dev nD) (t : Fin cfg0.N) : Vec F S1x7 .f32 := iblk m c 4 t
abbrev lblk (c : Dev nD) (t : Fin cfg0.N) : Vec F S400x10000 .f32 := iblk m c 5 t

/-- The grid's first point. -/
abbrev t0 : Fin cfg0.N := ⟨0, by decide⟩

/-- The first support, as point 0 forms it. -/
def S1val (c : Dev nD) : Vec F S10000x16 .f32 := k0_pay1 (xblk m c t0) (w1blk m c t0)

/-- The grid point that forms the stripe holding row `r` of the second support. -/
def stripePt (r : Fin 10000) : Fin cfg0.N :=
  ⟨r.val / 400 + 1, by have := r.isLt; show _ < grid0.N; rw [N_0]; omega⟩

/-- Row `r`'s place within its stripe. -/
def stripeRow (r : Fin 10000) : Fin 400 := ⟨r.val % 400, Nat.mod_lt _ (by decide)⟩

/-- The second support, each row as its stripe's point forms it. -/
def S2val (c : Dev nD) : Vec F S10000x7 .f32 := fun y =>
  k0_pay2 (lblk m c (stripePt (y 0))) (S1val m c) (b1blk m c (stripePt (y 0))) (w2blk m c (stripePt (y 0)))
    (ix2 (stripeRow (y 0)) (y 1))

/-- The result's block at a point of the last phase. -/
def outBlk (c : Dev nD) (t : Fin cfg0.N) : Vec F S400x7 .f32 := k0_pay3 (lblk m c t) (S2val m c) (b2blk m c t)

/-- What the scratch buffers hold before point `n`: from point 1 on the first holds S1; the second holds S2 on the rows
    below 400 (n - 1). -/
def Carried (c : Dev nD) (n : ℕ) (A : Vec F S10000x16 .f32) (B : Vec F S10000x7 .f32) : Prop :=
  (1 ≤ n → A = S1val m c) ∧ ∀ y : S10000x7.Idx, (y 0).val < 400 * (n - 1) → B y = S2val m c y

theorem carried_zero (c : Dev nD) (A : Vec F S10000x16 .f32) (B : Vec F S10000x7 .f32) : Carried m c 0 A B :=
  ⟨fun h => absurd h (by decide), fun y h => absurd h (Nat.not_lt_zero _)⟩

/-- After point 0 the first scratch holds S1; nothing is asked of the second yet. -/
theorem carried_first (c : Dev nD) (n : ℕ) (hn : n = 0) (A' : Vec F S10000x16 .f32) (B : Vec F S10000x7 .f32)
    (hA' : A' = S1val m c) : Carried m c (n + 1) A' B := by
  subst hn
  exact ⟨fun _ => hA', fun y h => absurd h (Nat.not_lt_zero _)⟩

/-- In the last phase nothing changes, and the second scratch is the whole S2. -/
theorem carried_last (c : Dev nD) (n : ℕ) (hn : 26 ≤ n) (A : Vec F S10000x16 .f32) (B : Vec F S10000x7 .f32)
    (hc : Carried m c n A B) : Carried m c (n + 1) A B :=
  ⟨fun _ => hc.1 (by omega), fun y _ => hc.2 y (by have := idx2_lt0 y; omega)⟩

theorem s2_full (c : Dev nD) (n : ℕ) (hn : 26 ≤ n) (A : Vec F S10000x16 .f32) (B : Vec F S10000x7 .f32)
    (hc : Carried m c n A B) : B = S2val m c :=
  funext fun y => hc.2 y (by have := idx2_lt0 y; omega)

/-- The scratch buffers as the body is handed them. -/
abbrev scr0 : Memref sig .tc .vmem S10000x16 .f32 := Memref.whole cc0_scratch0
abbrev scr1 : Memref sig .tc .vmem S10000x7 .f32 := Memref.whole cc0_scratch1

/-- A middle point stores its stripe's rows: the rows below stay, the stripe's rows are the point's payload, which is S2
    there. -/
theorem carried_mid (c : Dev nD) (t : Fin cfg0.N) (h1 : 1 ≤ t.val) (h2 : t.val ≤ 25)
    (g1 : Buf (Elt F) (scr1.view.loc (c : Thread nD τ))) (A : Vec F S10000x16 .f32)
    (hc : Carried m c t.val A (scr1.view.read (Elt F) g1))
    (inb : ∀ a, (k0_off1 (grid0.coords t)) a + S400x7.size a ≤ S10000x7.size a) :
    Carried m c (t.val + 1) A (scr1.view.read (Elt F) (scr1.view.writes (Elt F) g1
      [⟨Rect.unit (s := S10000x7) (k0_off1 (grid0.coords t)) S400x7.size inb,
        k0_pay2 (lblk m c t) A (b1blk m c t) (w2blk m c t)⟩])) := by
  refine ⟨fun _ => hc.1 h1, fun y hy => ?_⟩
  have hy0 := idx2_lt0 y
  by_cases hlt : (y 0).val < 400 * (t.val - 1)
  · rw [View.read_writes_cons_rows_of_not_mem scr1.view g1 inb _ [] y (off1_eq t h1 h2) (W := 400) rfl (Or.inl hlt),
      View.writes_nil]
    exact hc.2 y hlt
  · have hA := hc.1 h1
    subst hA
    have hp : stripePt (y 0) = t := Fin.ext (by show (y 0).val / 400 + 1 = t.val; omega)
    rw [View.read_writes_cons_rows_of_mem scr1.view g1 inb _ [] y (ix2 (stripeRow (y 0)) (y 1)) (off1_eq t h1 h2)
      (by show (y 0).val = 400 * (t.val - 1) + (y 0).val % 400; omega) rfl]
    unfold S2val
    rw [hp]

/-! ## The proof data -/

/-- The invariant before point `n`: the two scratch buffers at contents that carry what the earlier points formed, and
    the generator register at anything. -/
def Inv (c : Dev nD) (n : ℕ) : sProp 𝕄 :=
  iprop(∃ (g0 : Buf (Elt F) (scr0.view.loc (c : Thread nD τ))) (g1 : Buf (Elt F) (scr1.view.loc (c : Thread nD τ))),
    ⌜Carried m c n (scr0.view.read (Elt F) g0) (scr1.view.read (Elt F) g1)⌝
    ∗ (scr0.view.loc (c : Thread nD τ) ↦[scr0.view.set]{fullShare} g0)
    ∗ (scr1.view.loc (c : Thread nD τ) ↦[scr1.view.set]{fullShare} g1)
    ∗ ∃ r, prngReg c r)

/-- The proof data of the one pipeline on core `c`: the arrays as the region finds them; after the body each input's
    buffer at its block and, in the last phase, the result's at that point's block of the result; the invariant above;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk m c t
  Φ t := Inv m c t.val
  q _ := fullShare
  owed _ := 0

theorem A_eq (c : Dev nD) (w : Fin cfg0.W) : (dats m 0 c).A w = V m c (Pipeline.arrRef spec0 w) := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outBlk m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

theorem phi_cast (c : Dev nD) (t : Fin cfg0.N) : (dats m 0 c).Φ t.castSucc = Inv m c t.val := rfl
theorem phi_succ (c : Dev nD) (t : Fin cfg0.N) : (dats m 0 c).Φ t.succ = Inv m c (t.val + 1) := rfl

/-- The scratch buffers as the class invariant holds them and as the body's run names them: one points-to each. -/
theorem scr0_eq (c : Dev nD) (f : Buf (Elt F) ((c : Thread nD τ).loc cc0_scratch0)) :
    (scr0.view.loc (c : Thread nD τ) ↦[scr0.view.set]{fullShare} f : sProp 𝕄)
      = ((c : Thread nD τ).loc cc0_scratch0) ↦{fullShare} f := by
  simp only [Memref.view_whole, View.set_whole]
theorem scr1_eq (c : Dev nD) (f : Buf (Elt F) ((c : Thread nD τ).loc cc0_scratch1)) :
    (scr1.view.loc (c : Thread nD τ) ↦[scr1.view.set]{fullShare} f : sProp 𝕄)
      = ((c : Thread nD τ).loc cc0_scratch1) ↦{fullShare} f := by
  simp only [Memref.view_whole, View.set_whole]

/-- Before point 0 the scratch holds anything, and that is the invariant there; -/
theorem inv_in (c : Dev nD) : (ΦA spec0 c : sProp 𝕄) ⊢ (dats m 0 c).Φ 0 := by
  show (ΦA spec0 c : sProp 𝕄) ⊢ Inv m c 0
  unfold ΦA Inv
  rw [scopedRest0_eq]
  iintro ⟨⟨⟨%g0, H0⟩, ⟨%g1, H1⟩⟩, HR⟩
  iexists g0; iexists g1
  isplitr
  · ipureintro; exact carried_zero m c _ _
  isplitl [H0]
  · rw [scr0_eq]; iexact H0
  isplitl [H1]
  · rw [scr1_eq]; iexact H1
  iexact HR

/-- after the last point what it holds is forgotten. -/
theorem inv_out (c : Dev nD) : (dats m 0 c).Φ (Fin.last cfg0.N) ⊢ (ΦA spec0 c : sProp 𝕄) := by
  show Inv m c (Fin.last cfg0.N).val ⊢ (ΦA spec0 c : sProp 𝕄)
  unfold ΦA Inv
  rw [scopedRest0_eq]
  iintro ⟨%g0, %g1, -, H0, H1, HR⟩
  isplitl [H0 H1]
  · isplitl [H0]
    · iexists g0; rw [← scr0_eq]; iexact H0
    · iexists g1; rw [← scr1_eq]; iexact H1
  iexact HR

end Cert.Proof.KI

end
-- ==== Proof.KIRun.lean ====
import proofs.«110868_g70901320122454_cont_9to1_m_1154_4_alg».proof.Proof.KRun
import proofs.«110868_g70901320122454_cont_9to1_m_1154_4_alg».proof.Proof.Gen.KernelIdeal.Frame
import proofs.«110868_g70901320122454_cont_9to1_m_1154_4_alg».proof.Proof.Gen.KernelIdeal.Skeleton
import proofs.«110868_g70901320122454_cont_9to1_m_1154_4_alg».proof.Proof.KIData
import Idealize.ShloMosaic.Lib.Pipeline.Value
import Idealize.ShloMosaic.Lib.WritesUnit

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf ΦA)

variable {F : FTy → Type} [FloatOps F]
local notation "𝕄" => MT nD τ sig Unit (Elt F) ℕ (UR sig nD τ) ℕ

variable (m : (ℓ : Loc nD τ sig) → Buf (Elt F) ℓ) (ρ : Dev nD → PrngReg)

/-! ## The body obligation, phase by phase -/

/-- What the body is called with at point `t`: the invariant, the core's tallies, and each window's current staging
    buffer at what it then holds. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it returns at a point of the first two phases: the result's buffer as it was found, -/
def bodyPostIdle (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ d, owns (c : Thread nD τ) (st0_6 t) fullShare ((dats m 0 c).before 6 t d)))

/-- and at a point of the last phase: the result's buffer at the point's block of the result. -/
def bodyPostLive (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 1000000 in
/-- Point 0: the first scratch is handed over at anything and taken back at S1. -/
theorem sound_body_first (c : Dev nD) (t : Fin cfg0.N) (ht : t.val = 0) :
    bodyPre m c t ⊢ wp frame (wpE (defs₀ (F := F)) Variants.none c none) Set.univ (bodyAt0 t) (fun _ => bodyPostIdle m c t) := by
  have htt : t = t0 := Fin.ext ht
  subst htt
  have hc1 : cond1 (grid0.coords t0) := (cond1_iff t0).mpr ht
  have hc2 : ¬ k0_cond2 (grid0.coords t0) = 1#1 := fun h => by have := (cond2_iff t0).mp h; omega
  have hc3 : ¬ k0_cond3 (grid0.coords t0) = 1#1 := fun h => by have := (cond3_iff t0).mp h; omega
  unfold bodyPre bodyPostIdle bodyAt0
  simp only [before0_0, before0_1, before0_2, before0_3, before0_4, before0_5]
  rw [show (dats m 0 c).owesAt () t0.succ = (dats m 0 c).owesAt () t0.castSucc from rfl,
    after0_0, after0_1, after0_2, after0_3, after0_4, after0_5, phi_cast, phi_succ]
  unfold Inv
  iintro ⟨⟨%g0, %g1, %hc, HS0, HS1, HR⟩, Ho, ⟨%d0, H0⟩, ⟨%d1, H1⟩, ⟨%d2, H2⟩, ⟨%d3, H3⟩, ⟨%d4, H4⟩, ⟨%d5, H5⟩, H6⟩
  iapply (sound_first c (grid0.coords t0) hc1 hc2 hc3 _ _ _ _ _ _ _ _ _ _ _ _ _ _ scr0 (Memref.isWhole_whole _) scr1 (Memref.isWhole_whole _)
    (iblk m c 0 t0) (iblk m c 1 t0) g0 _)
  isplitl [H0]; · iexact H0
  isplitl [H1]; · iexact H1
  isplitl [HS0]; · iexact HS0
  iintro ⟨H0, H1, ⟨%g0', %hg0', HS0⟩⟩
  isplitl [HS0 HS1 HR]
  · iexists g0'; iexists g1; isplitr
    · ipureintro; exact carried_first m c t0.val ht _ _ hg0'
    isplitl [HS0]; · iexact HS0
    isplitl [HS1]; · iexact HS1
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 1000000 in
/-- Points 1 to 25: the first scratch is read, the second takes the stripe's rows. -/
theorem sound_body_mid (c : Dev nD) (t : Fin cfg0.N) (h1 : 1 ≤ t.val) (h2 : t.val ≤ 25) :
    bodyPre m c t ⊢ wp frame (wpE (defs₀ (F := F)) Variants.none c none) Set.univ (bodyAt0 t) (fun _ => bodyPostIdle m c t) := by
  have hc1 : ¬ cond1 (grid0.coords t) := fun h => by have := (cond1_iff t).mp h; omega
  have hc2 : k0_cond2 (grid0.coords t) = 1#1 := (cond2_iff t).mpr ⟨h1, h2⟩
  have hc3 : ¬ k0_cond3 (grid0.coords t) = 1#1 := fun h => by have := (cond3_iff t).mp h; omega
  unfold bodyPre bodyPostIdle bodyAt0
  simp only [before0_0, before0_1, before0_2, before0_3, before0_4, before0_5]
  rw [show (dats m 0 c).owesAt () t.succ = (dats m 0 c).owesAt () t.castSucc from rfl,
    after0_0, after0_1, after0_2, after0_3, after0_4, after0_5, phi_cast, phi_succ]
  unfold Inv
  iintro ⟨⟨%g0, %g1, %hc, HS0, HS1, HR⟩, Ho, ⟨%d0, H0⟩, ⟨%d1, H1⟩, ⟨%d2, H2⟩, ⟨%d3, H3⟩, ⟨%d4, H4⟩, ⟨%d5, H5⟩, H6⟩
  iapply (sound_mid c (grid0.coords t) hc1 hc2 hc3 _ _ _ _ _ _ _ _ _ _ _ _ _ _ scr0 (Memref.isWhole_whole _) scr1 (Memref.isWhole_whole _)
    (iblk m c 2 t) (iblk m c 3 t) (iblk m c 5 t) g0 g1 _)
  isplitl [H2]; · iexact H2
  isplitl [H3]; · iexact H3
  isplitl [H5]; · iexact H5
  isplitl [HS0]; · iexact HS0
  isplitl [HS1]; · iexact HS1
  iintro ⟨H2, H3, H5, HS0, HS1⟩
  isplitl [HS0 HS1 HR]
  · iexists g0; iexists _; isplitr
    swap
    · isplitl [HS0]; · iexact HS0
      isplitl [HS1]; · iexact HS1
      iexact HR
    ipureintro; exact carried_mid m c t h1 h2 g1 _ hc _
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 1000000 in
/-- Points 26 to 50: the second scratch, by now the whole S2, is read; the result's buffer takes the point's block. -/
theorem sound_body_last (c : Dev nD) (t : Fin cfg0.N) (h : 26 ≤ t.val) :
    bodyPre m c t ⊢ wp frame (wpE (defs₀ (F := F)) Variants.none c none) Set.univ (bodyAt0 t) (fun _ => bodyPostLive m c t) := by
  have hc1 : ¬ cond1 (grid0.coords t) := fun h' => by have := (cond1_iff t).mp h'; omega
  have hc2 : ¬ k0_cond2 (grid0.coords t) = 1#1 := fun h' => by have := (cond2_iff t).mp h'; omega
  have hc3 : k0_cond3 (grid0.coords t) = 1#1 := (cond3_iff t).mpr h
  unfold bodyPre bodyPostLive bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6, phi_cast, phi_succ]
  unfold Inv
  iintro ⟨⟨%g0, %g1, %hc, HS0, HS1, HR⟩, Ho, ⟨%d0, H0⟩, ⟨%d1, H1⟩, ⟨%d2, H2⟩, ⟨%d3, H3⟩, ⟨%d4, H4⟩, ⟨%d5, H5⟩, ⟨%d6, H6⟩⟩
  have hS2 : scr1.view.read (Elt F) g1 = S2val m c := s2_full m c t.val h _ _ hc
  iapply (sound_last c (grid0.coords t) hc1 hc2 hc3 _ _ _ _ _ _ _ _ _ _ _ _ _ _ scr0 (Memref.isWhole_whole _) scr1 (Memref.isWhole_whole _)
    (iblk m c 4 t) (iblk m c 5 t) g1 _)
  isplitl [H4]; · iexact H4
  isplitl [H5]; · iexact H5
  isplitl [H6]; · iexists _; iexact H6
  isplitl [HS1]; · iexact HS1
  iintro ⟨H4, H5, H6, HS1⟩
  isplitl [HS0 HS1 HR]
  · iexists g0; iexists g1; isplitr
    · ipureintro; exact carried_last m c t.val h _ _ hc
    isplitl [HS0]; · iexact HS0
    isplitl [HS1]; · iexact HS1
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold outBlk
  rw [← hS2]
  iexact H6

/-- The result window's idleness, as the obligation spells it once its configuration is unfolded. -/
theorem idle0_6_true (t : Fin cfg0.N) (h : t.val ≤ 25) : idle0 6 (grid0.coords t) = true := idle6_true t h
theorem idle0_6_false (t : Fin cfg0.N) (h : 26 ≤ t.val) : idle0 6 (grid0.coords t) = false := idle6_false t h

set_option maxHeartbeats 4000000 in
/-- The library's body obligation, at every point: the result window is idle and not written back through point 25, live
    and written back from point 26 on. -/
theorem body_obligation (c : Dev nD) : BodyObligation (dats (F := F) m 0 c) (defs₀ (F := F)) Variants.none () Set.univ := fun t => by
  rw [bigSep_W0, bigSep_W0]
  by_cases h : t.val ≤ 25
  · simp only [idle0_6_true t h, flush6_false t h]
    by_cases h0 : t.val = 0
    · exact sound_body_first m c t h0
    · exact sound_body_mid m c t (by omega) h
  · simp only [idle0_6_false t (by omega)]
    exact sound_body_last m c t (by omega)

/-! ## The run and the frame -/

set_option backward.isDefEq.respectTransparency.types false in
/-- Every weakly fair execution of @main terminates, and every final state has every array of the pipeline at what the
    proof data computes and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl)
    (hin := inv_in m) (hout := inv_out m)

/-- The program runs, faults nowhere and leaves its six argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Proof.KI

end
-- ==== Proof.KIArray.lean ====
import proofs.«110868_g70901320122454_cont_9to1_m_1154_4_alg».proof.Proof.KIData
import Idealize.ShloMosaic.Lib.Pipeline.Value
import Idealize.ShloMosaic.Lib.ValueIdx

/-!
  From the written-back blocks to the result array.

  The result has 10000 rows, written back in 25 stripes of 400 rows: the grid point t of the last phase (26 ≤ t ≤ 50)
  writes rows [400 (t - 26), 400 (t - 25)) and every column. Row r = 400 (r / 400) + r % 400 therefore lies in the
  stripe of the point r / 400 + 26, at the place r % 400 within it; the stripes cover every row, so after the last
  point the array holds, at (r, q), entry (r % 400, q) of the block that point formed.
-/

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf ΦA)

variable {F : FTy → Type} [FloatOps F]

open Idealize.ShloMosaic.ValueIdx (ix2 idx2_lt0)

variable (m : (ℓ : Loc nD τ sig) → Buf (Elt F) ℓ)

/-- The grid point of the last phase that writes back the stripe holding row `r` of the result. -/
def lastPt (r : Fin 10000) : Fin cfg0.N :=
  ⟨r.val / 400 + 26, by have := r.isLt; show _ < grid0.N; rw [N_0]; omega⟩

/-- The result array: row r is row r % 400 of the block formed at the point that writes back r's stripe. -/
def outArr (c : Dev nD) : Vec F S10000x7 .f32 := fun y =>
  outBlk m c (lastPt (y 0)) (ix2 (stripeRow (y 0)) (y 1))

/-- The result window's block index at a point t of the last phase is (t - 26, 0): decided over the grid. -/
theorem stripe_index : ∀ t : Fin cfg0.N, 26 ≤ t.val →
    win0_6.index t (0 : Fin 2) = t.val - 26 ∧ win0_6.index t (1 : Fin 2) = 0 :=
  (by decide +kernel : ∀ t : Fin grid0.N, 26 ≤ t.val →
    win0_6.index t (0 : Fin 2) = t.val - 26 ∧ win0_6.index t (1 : Fin 2) = 0)

/-- What a point t of the last phase writes back is the rows of its stripe of the result array. -/
theorem flushed_stripe (c : Dev nD) (t : Fin cfg0.N) (ht : 26 ≤ t.val) :
    (dats m 0 c).flushed 6 t = ((cfg0.win 6).blk t).view.read (Elt F) (outArr m c) := by
  show (cfg0.win 6).cut (grid0.coords t) ((dats m 0 c).after 6 t) = _
  rw [after0_6]
  obtain ⟨e0, e1⟩ := stripe_index t ht
  funext j
  have hj0 : (j 0).val < 400 := (j 0).isLt
  have hj1 : (j 1).val < 7 := (j 1).isLt
  show outBlk m c t ((cfg0.win 6).xinj (grid0.coords t) j) = outArr m c (((cfg0.win 6).blk t).view.emb j)
  have hy0 : ((((cfg0.win 6).blk t).view.emb j) 0).val = win0_6.index t (0 : Fin 2) * 400 + 1 * (j 0).val := rfl
  have hy1 : ((((cfg0.win 6).blk t).view.emb j) 1).val = win0_6.index t (1 : Fin 2) * 7 + 1 * (j 1).val := rfl
  generalize ((cfg0.win 6).blk t).view.emb j = y at hy0 hy1
  unfold outArr
  have hp : lastPt (y 0) = t := Fin.ext (by show (y 0).val / 400 + 26 = t.val; omega)
  rw [hp]
  refine congrArg (outBlk m c t) (funext fun a => ?_)
  match a with
  | ⟨0, _⟩ => exact Fin.ext (by show (j 0).val = (y 0).val % 400; omega)
  | ⟨1, _⟩ => exact Fin.ext (by show (j 1).val = (y 1).val; omega)

/-- An index of the result array is in point t's stripe iff each coordinate is in the stripe's range on its axis. -/
theorem mem_stripe (t : Fin cfg0.N) (i : S10000x7.Idx) :
    i ∈ ((cfg0.win 6).blk t).view.set ↔ ∀ a : Fin 2, win0_6.index t a * S400x7.size a ≤ (i a).val
      ∧ (i a).val < win0_6.index t a * S400x7.size a + S400x7.size a := by
  show i ∈ ((View.whole main_v2).slice (win0_6.rect t)).set ↔ _
  rw [View.set_slice_whole, Rect.mem_set_unit]
  exact Iff.rfl

/-- Every index of the result array lies in the stripe of a point that writes back: the point of its row. -/
theorem covered (i : S10000x7.Idx) :
    ∃ t : Fin cfg0.N, (cfg0.win 6).flush t = true ∧ i ∈ ((cfg0.win 6).blk t).view.set := by
  have hi0 : (i 0).val < 10000 := (i 0).isLt
  have hi1 : (i 1).val < 7 := (i 1).isLt
  have ht : 26 ≤ (lastPt (i 0)).val := by show 26 ≤ (i 0).val / 400 + 26; omega
  have hv : (lastPt (i 0)).val = (i 0).val / 400 + 26 := rfl
  obtain ⟨e0, e1⟩ := stripe_index (lastPt (i 0)) ht
  refine ⟨lastPt (i 0), (flush6_iff _).mpr ht, ?_⟩
  rw [mem_stripe]
  intro a
  match a with
  | ⟨0, _⟩ =>
    show win0_6.index (lastPt (i 0)) (0 : Fin 2) * 400 ≤ (i 0).val
      ∧ (i 0).val < win0_6.index (lastPt (i 0)) (0 : Fin 2) * 400 + 400
    omega
  | ⟨1, _⟩ =>
    show win0_6.index (lastPt (i 0)) (1 : Fin 2) * 7 ≤ (i 1).val
      ∧ (i 1).val < win0_6.index (lastPt (i 0)) (1 : Fin 2) * 7 + 7
    omega

/-- After the last point the result array is the result row by row. -/
theorem final_out (c : Dev nD) : (dats m 0 c).arrAt 6 cfg0.N = outArr m c :=
  (dats m 0 c).arrAt_eq_of_cover 6 (outArr m c)
    (fun t hf => flushed_stripe m c t ((flush6_iff t).mp hf)) (covered)

end Cert.Proof.KI

end
-- ==== Proof.LibPlainDot.lean ====
import Idealize.ShloMosaic.PureOps.Ideal.Laws
import Idealize.ShloMosaic.Lib.ValueIdx
import Idealize.ShloMosaic.PureOps.Dims

/-!
  A plain matrix product: a left operand of shape [M, K] contracted on its axis 1 against a right operand of shape
  [K, N] contracted on its axis 0, with no batch axes, gives a result of shape [M, N] whose entry (p, q) is the sum
  over k < K of l(p, k) · r(k, q). The dimension record is a variable and its six lists are hypotheses, so the lemmas
  apply to every record of this shape.
-/

open scoped BigOperators

namespace Cert.Lib.PlainDot

open Idealize.ShloMosaic Idealize.ShloMosaic.ValueIdx

variable {M K N : Nat} (d : DotDims ⟨2, ![M, K]⟩ ⟨2, ![K, N]⟩ ⟨2, ![M, N]⟩)

/-- With one contracting axis the contraction shape has rank one. -/
theorem rank_contr_eq_one (hlc : d.lhsContracting = [1]) : d.contr.rank = 1 := by
  rw [d.rank_contr, hlc]; rfl

/-- The one axis of the contraction shape has the extent K of the left operand's axis 1. -/
theorem size_contr_eq (hlc : d.lhsContracting = [1]) :
    d.contr.size ⟨0, by rw [rank_contr_eq_one d hlc]; exact Nat.one_pos⟩ = K := by
  have h0 : 0 < d.lhsContracting.length := by rw [hlc]; exact Nat.one_pos
  rw [d.size_contr 0 h0]
  have h1 : d.lhsContracting[0] = 1 := by simp [hlc]
  rw [h1]; rfl

/-- The left operand's index reads, on its non-contracting axis 0, the result index's row. -/
theorem lhsIdx_zero_val (hln : d.lhsNonContracting = [0]) (hlb : d.lhsBatch = [])
    (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (n : Nat) (h : n < (⟨2, ![M, N]⟩ : Shape).rank), n = 0 → (j ⟨n, h⟩).val = (j 0).val :=
    fun n h e => by subst e; rfl
  exact key _ _ (by simp [hlb, hln])

/-- The right operand's index reads, on its non-contracting axis 1, the result index's column. -/
theorem rhsIdx_one_val (hln : d.lhsNonContracting = [0]) (hrn : d.rhsNonContracting = [1])
    (hlb : d.lhsBatch = []) (hrb : d.rhsBatch = [])
    (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (n : Nat) (h : n < (⟨2, ![M, N]⟩ : Shape).rank), n = 1 → (j ⟨n, h⟩).val = (j 1).val :=
    fun n h e => by subst e; rfl
  exact key _ _ (by simp [hlb, hln, hrn])

/-- The contraction sum of a plain matrix product at entry (p, q), re-indexed by the one contraction coordinate, is the
    sum over k < K of l(p, k) · r(k, q). -/
theorem sum_eq (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (p : Fin M) (q : Fin N) :
    (∑ k : d.contr.Idx, l (d.lhsIdx (ix2 p q) k) * r (d.rhsIdx (ix2 p q) k)) = ∑ k : Fin K, l (ix2 p k) * r (ix2 k q) := by
  have hr : d.contr.rank = 1 := rank_contr_eq_one d hlc
  have hs : d.contr.size ⟨0, by omega⟩ = K := size_contr_eq d hlc
  refine (Equiv.sum_comp (contrEquiv1 d K hr hs).symm
    (fun k => l (d.lhsIdx (ix2 p q) k) * r (d.rhsIdx (ix2 p q) k))).symm.trans ?_
  refine Finset.sum_congr rfl fun i _ => ?_
  have hL : d.lhsIdx (ix2 p q) ((contrEquiv1 d K hr hs).symm i) = ix2 p i := by
    funext a
    match a with
    | ⟨0, _⟩ => exact Fin.ext (lhsIdx_zero_val d hln hlb _ _)
    | ⟨1, _⟩ => exact Fin.ext ((d.lhsIdx_val_of_single hlc _ _).trans (contrEquiv1_symm_val d K hr hs i))
  have hR : d.rhsIdx (ix2 p q) ((contrEquiv1 d K hr hs).symm i) = ix2 i q := by
    funext a
    match a with
    | ⟨0, _⟩ => exact Fin.ext ((d.rhsIdx_val_of_single hrc _ _).trans (contrEquiv1_symm_val d K hr hs i))
    | ⟨1, _⟩ => exact Fin.ext (rhsIdx_one_val d hln hrn hlb hrb _ _)
  show l _ * r _ = _
  rw [hL, hR]

/-- A plain matrix product accumulated into the zero splat, read at entry (p, q) at the ideal values, is the sum over
    k < K of l(p, k) · r(k, q). -/
theorem matmul_zero_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (l : FVec Ideal ⟨2, ![M, K]⟩ φ₁) (r : FVec Ideal ⟨2, ![K, N]⟩ φ₂) (p : Fin M) (q : Fin N) :
    FloatOps.matmul d prec l r (constant (F := Ideal) ⟨2, ![M, N]⟩ .f32 0x00000000#32) (ix2 p q)
      = ∑ k : Fin K, l (ix2 p k) * r (ix2 k q) :=
  (Ideal.matmul_constant_zero_apply d prec l r (ix2 p q)).trans (sum_eq d hlc hrc hln hrn hlb hrb l r p q)

/-- The host's plain matrix product, read at entry (p, q) at the ideal values, is the sum over k < K of
    l(p, k) · r(k, q), whatever the schedule. -/
theorem dotGeneral_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) :=
  (Ideal.dotGeneral_apply d prec sched l r (ix2 p q)).trans (sum_eq d hlc hrc hln hrn hlb hrb l r p q)

end Cert.Lib.PlainDot
-- ==== Proof.PayIdeal.lean ====
import proofs.«110868_g70901320122454_cont_9to1_m_1154_4_alg».proof.Proof.Gen.KernelIdeal.Skeleton
import proofs.«110868_g70901320122454_cont_9to1_m_1154_4_alg».proof.Proof.LibPlainDot
import Idealize.ShloMosaic.Lib.ValueIdx
import Idealize.ShloMosaic.Lib.Pipeline.Value
import Idealize.ShloMosaic.Lib.ValueLayout
import Idealize.ShloMosaic.PureOps.Ideal.Laws

/-!
  The kernel's three stored values read at one entry, over the extended reals.

  The first is the product X · W; the second is max (Lb · S1 + b) 0 · W2 for a 400 × 10000 array Lb; the third is
  Lb · S2 + b. Every product is the plain sum over the contracted coordinate, the bias b is a one-row array read
  at its row 0, and the maximum is against the constant 0.
-/

noncomputable section

open scoped BigOperators

namespace Cert.Gcn.Pay

open Cert.KernelIdeal Cert.KernelIdeal.Gen Idealize.ShloMosaic Idealize.ShloMosaic.ValueIdx

/-- The zero word of the 32-bit format denotes the extended real 0. -/
theorem scalar_zero : (Scalar.ofBits (F := Ideal) .f32 0x00000000#32 : Ideal .f32) = 0 :=
  Ideal.ofBits_zero_f32

/-- First payload: entry (p, q) of X · W is the sum over the 128 contracted coordinates. -/
theorem pay1_apply (X : Vec Ideal S10000x128 .f32) (W : Vec Ideal S128x16 .f32) (p : Fin 10000) (q : Fin 16) :
    k0_pay1 (F := Ideal) X W (ix2 p q) = ∑ k : Fin 128, X (ix2 p k) * W (ix2 k q) := by
  unfold k0_pay1
  simp only [shapeCast_self]
  exact Cert.Lib.PlainDot.matmul_zero_apply dot_S10000x128_S128x16_S10000x16_1_0_0_1_n_n rfl rfl rfl rfl rfl rfl none X W p q

/-- The hidden block of the second payload: max (Lb · S1 + b) 0 as a 400 × 16 array, the one row b broadcast down the
    rows. -/
def hiddenBlock (Lb : FVec Ideal S400x10000 .f32) (S1 : FVec Ideal S10000x16 .f32) (b : FVec Ideal S1x16 .f32) :
    FVec Ideal S400x16 .f32 :=
  maximumf
    (addf (matmul dot_S400x10000_S10000x16_S400x16_1_0_0_1_n_n none Lb S1 (constant S400x16 .f32 0x00000000#32))
      (broadcastTo S400x16 (shapeCast S1x16 b shapeCasts_S1x16_S1x16) broadcasts_S1x16_S400x16))
    (broadcast S400x16 (Scalar.ofBits .f32 0x00000000#32))

/-- Entry (p, k) of the hidden block. -/
theorem hiddenBlock_apply (Lb : FVec Ideal S400x10000 .f32) (S1 : FVec Ideal S10000x16 .f32) (b : FVec Ideal S1x16 .f32)
    (p : Fin 400) (k : Fin 16) :
    hiddenBlock Lb S1 b (ix2 p k) = max ((∑ j : Fin 10000, Lb (ix2 p j) * S1 (ix2 j k)) + b (ix2 (0 : Fin 1) k)) 0 := by
  have hm : matmul dot_S400x10000_S10000x16_S400x16_1_0_0_1_n_n none Lb S1 (constant S400x16 .f32 0x00000000#32) (ix2 p k)
      = ∑ j : Fin 10000, Lb (ix2 p j) * S1 (ix2 j k) :=
    Cert.Lib.PlainDot.matmul_zero_apply dot_S400x10000_S10000x16_S400x16_1_0_0_1_n_n rfl rfl rfl rfl rfl rfl none Lb S1 p k
  unfold hiddenBlock
  rw [maximumf_apply, addf_apply, broadcast_apply, scalar_zero, shapeCast_self,
    broadcastTo_1b_ab_apply b broadcasts_S1x16_S400x16 p k, hm]

/-- Second payload: entry (p, q) of max (Lb · S1 + b) 0 · W2. -/
theorem pay2_apply (Lb : Vec Ideal S400x10000 .f32) (S1 : Vec Ideal S10000x16 .f32) (b : Vec Ideal S1x16 .f32)
    (W2 : Vec Ideal S16x7 .f32) (p : Fin 400) (q : Fin 7) :
    k0_pay2 (F := Ideal) Lb S1 b W2 (ix2 p q)
      = ∑ k : Fin 16, max ((∑ j : Fin 10000, Lb (ix2 p j) * S1 (ix2 j k)) + b (ix2 (0 : Fin 1) k)) 0 * W2 (ix2 k q) := by
  have h : k0_pay2 (F := Ideal) Lb S1 b W2
      = shapeCast S400x7 (matmul (φ₁ := .f32) (φ₂ := .f32) dot_S400x16_S16x7_S400x7_1_0_0_1_n_n none (hiddenBlock Lb S1 b) W2
          (constant S400x7 .f32 0x00000000#32)) shapeCasts_S400x7_S400x7 := rfl
  have hm : matmul (φ₁ := .f32) (φ₂ := .f32) dot_S400x16_S16x7_S400x7_1_0_0_1_n_n none (hiddenBlock Lb S1 b) W2
        (constant S400x7 .f32 0x00000000#32) (ix2 p q)
      = ∑ k : Fin 16, hiddenBlock Lb S1 b (ix2 p k) * W2 (ix2 k q) :=
    Cert.Lib.PlainDot.matmul_zero_apply dot_S400x16_S16x7_S400x7_1_0_0_1_n_n rfl rfl rfl rfl rfl rfl none (hiddenBlock Lb S1 b) W2 p q
  rw [h, shapeCast_self, hm]
  exact Finset.sum_congr rfl fun k _ => by rw [hiddenBlock_apply]

/-- The third payload's expression over arrays of extended reals: entry (p, q) of Lb · S2 + b, the one row b read at
    column q. -/
theorem outBlock_apply (Lb : FVec Ideal S400x10000 .f32) (S2 : FVec Ideal S10000x7 .f32) (b : FVec Ideal S1x7 .f32)
    (p : Fin 400) (q : Fin 7) :
    addf (matmul dot_S400x10000_S10000x7_S400x7_1_0_0_1_n_n none Lb S2 (constant S400x7 .f32 0x00000000#32))
        (broadcastTo S400x7 (shapeCast S1x7 b shapeCasts_S1x7_S1x7) broadcasts_S1x7_S400x7) (ix2 p q)
      = (∑ j : Fin 10000, Lb (ix2 p j) * S2 (ix2 j q)) + b (ix2 (0 : Fin 1) q) := by
  have hm : matmul dot_S400x10000_S10000x7_S400x7_1_0_0_1_n_n none Lb S2 (constant S400x7 .f32 0x00000000#32) (ix2 p q)
      = ∑ j : Fin 10000, Lb (ix2 p j) * S2 (ix2 j q) :=
    Cert.Lib.PlainDot.matmul_zero_apply dot_S400x10000_S10000x7_S400x7_1_0_0_1_n_n rfl rfl rfl rfl rfl rfl none Lb S2 p q
  rw [addf_apply, shapeCast_self, broadcastTo_1b_ab_apply b broadcasts_S1x7_S400x7 p q, hm]

/-- Third payload: entry (p, q) of Lb · S2 + b, the one row b read at column q. -/
theorem pay3_apply (Lb : Vec Ideal S400x10000 .f32) (S2 : Vec Ideal S10000x7 .f32) (b : Vec Ideal S1x7 .f32)
    (p : Fin 400) (q : Fin 7) :
    k0_pay3 (F := Ideal) Lb S2 b (ix2 p q) = (∑ j : Fin 10000, Lb (ix2 p j) * S2 (ix2 j q)) + b (ix2 (0 : Fin 1) q) :=
  outBlock_apply Lb S2 b p q

end Cert.Gcn.Pay

end
-- ==== Proof.BlockReads.lean ====
import proofs.«110868_g70901320122454_cont_9to1_m_1154_4_alg».proof.Proof.Gen.KernelIdeal.Frame
import Idealize.ShloMosaic.Lib.ValueIdx
import Idealize.ShloMosaic.Lib.Pipeline.Value
import Idealize.ShloMosaic.Lib.ValueLayout
import Idealize.ShloMosaic.Lib.StableHlo.Run

/-!
  What each input block of the kernel holds, read off the argument arrays.

  The features X, the weights W1 and W2 and the two bias rows are staged whole: their one block, at every grid
  point, is the whole array. The bias rows reach the kernel as 1 × 16 and 1 × 7 arrays, the row-major reshapes of
  the length-16 and length-7 bias vectors, so entry (0, k) of such a block is entry k of the vector. The Laplacian
  L is staged in stripes of 400 rows: at grid points 1 to 25 the stripe is number t - 1, at points 26 to 50 it is
  number t - 26, so entry (p, j) of the block is entry (400 · stripe + p, j) of L.
-/

set_option maxRecDepth 16384

noncomputable section

namespace Cert.Gcn.Blocks

open Cert.KernelIdeal Cert.KernelIdeal.Gen Idealize.ShloMosaic Idealize.ShloMosaic.ValueIdx Idealize.ShloMosaic.TcCoe

variable (m : (ℓ : Loc nD τ sig) → Buf (Elt Ideal) ℓ) (c : Dev nD) (t : Fin cfg0.N)

/-! ## The arrays staged whole -/

/-- The block of X is X. -/
theorem xblk_eq : (iblk m c 0 t : Vec Ideal S10000x128 .f32) = m ((c : Thread nD τ).loc main_arg1) := by
  have hz : (fun a => (win0_0.index t) a * main_arg1.ty.shape.size a) = fun _ => 0 :=
    funext fun a => by fin_cases a <;> exact Nat.zero_mul _
  exact (Memref.read_access_unit_zero (Elt Ideal) main_arg1 hz _ _).trans (V_main_arg1 m c)

/-- The block of W1 is W1. -/
theorem w1blk_eq : (iblk m c 1 t : Vec Ideal S128x16 .f32) = m ((c : Thread nD τ).loc main_arg2) := by
  have hz : (fun a => (win0_1.index t) a * main_arg2.ty.shape.size a) = fun _ => 0 :=
    funext fun a => by fin_cases a <;> exact Nat.zero_mul _
  exact (Memref.read_access_unit_zero (Elt Ideal) main_arg2 hz _ _).trans (V_main_arg2 m c)

/-- The block of W2 is W2. -/
theorem w2blk_eq : (iblk m c 3 t : Vec Ideal S16x7 .f32) = m ((c : Thread nD τ).loc main_arg4) := by
  have hz : (fun a => (win0_3.index t) a * main_arg4.ty.shape.size a) = fun _ => 0 :=
    funext fun a => by fin_cases a <;> exact Nat.zero_mul _
  exact (Memref.read_access_unit_zero (Elt Ideal) main_arg4 hz _ _).trans (V_main_arg4 m c)

/-! ## The bias rows -/

/-- The 1 × 16 array the kernel is given is the row-major reshape of the bias vector b1. -/
theorem v0_eq : (V m c main_v0 : S1x16.Idx → EReal) = shapeCast S1x16 (m ((c : Thread nD τ).loc main_arg3)) shapeCasts_S16_S1x16 := by
  dsimp only [Gen.V, Gen.hostOps0]
  after_results
  rfl

/-- The 1 × 7 array the kernel is given is the row-major reshape of the bias vector b2. -/
theorem v1_eq : (V m c main_v1 : S1x7.Idx → EReal) = shapeCast S1x7 (m ((c : Thread nD τ).loc main_arg5)) shapeCasts_S7_S1x7 := by
  dsimp only [Gen.V, Gen.hostOps0]
  after_results
  rfl

/-- Entry (0, k) of the block of the first bias row is entry k of b1. -/
theorem b1blk_apply (k : Fin 16) :
    (iblk m c 2 t : Vec Ideal S1x16 .f32) (ix2 (0 : Fin 1) k) = m ((c : Thread nD τ).loc main_arg3) (ix1 k) := by
  have hz : (fun a => (win0_2.index t) a * main_v0.ty.shape.size a) = fun _ => 0 :=
    funext fun a => by fin_cases a <;> exact Nat.zero_mul _
  have hb : (iblk m c 2 t : Vec Ideal S1x16 .f32) = V m c main_v0 :=
    Memref.read_access_unit_zero (Elt Ideal) main_v0 hz _ _
  refine (congrFun hb _).trans ((congrFun (v0_eq m c) _).trans ?_)
  refine shapeCast_apply _ _ _ (ix1 k) ?_
  rw [Shape.rowMajor_val_one, Shape.rowMajor_val_two]
  show k.val = 0 * 16 + k.val
  omega

/-- Entry (0, k) of the block of the second bias row is entry k of b2. -/
theorem b2blk_apply (k : Fin 7) :
    (iblk m c 4 t : Vec Ideal S1x7 .f32) (ix2 (0 : Fin 1) k) = m ((c : Thread nD τ).loc main_arg5) (ix1 k) := by
  have hz : (fun a => (win0_4.index t) a * main_v1.ty.shape.size a) = fun _ => 0 :=
    funext fun a => by fin_cases a <;> exact Nat.zero_mul _
  have hb : (iblk m c 4 t : Vec Ideal S1x7 .f32) = V m c main_v1 :=
    Memref.read_access_unit_zero (Elt Ideal) main_v1 hz _ _
  refine (congrFun hb _).trans ((congrFun (v1_eq m c) _).trans ?_)
  refine shapeCast_apply _ _ _ (ix1 k) ?_
  rw [Shape.rowMajor_val_one, Shape.rowMajor_val_two]
  show k.val = 0 * 7 + k.val
  omega

/-! ## The stripes of L -/

/-- At grid points 1 to 25 the stripe of L is number t - 1, at column block 0. -/
theorem stripe_mid : ∀ t : Fin cfg0.N, 1 ≤ t.val → t.val ≤ 25 →
    win0_5.index t (0 : Fin 2) = t.val - 1 ∧ win0_5.index t (1 : Fin 2) = 0 :=
  (by decide +kernel : ∀ t : Fin grid0.N, 1 ≤ t.val → t.val ≤ 25 →
    win0_5.index t (0 : Fin 2) = t.val - 1 ∧ win0_5.index t (1 : Fin 2) = 0)

/-- At grid points 26 to 50 the stripe of L is number t - 26, at column block 0. -/
theorem stripe_last : ∀ t : Fin cfg0.N, 26 ≤ t.val →
    win0_5.index t (0 : Fin 2) = t.val - 26 ∧ win0_5.index t (1 : Fin 2) = 0 :=
  (by decide +kernel : ∀ t : Fin grid0.N, 26 ≤ t.val →
    win0_5.index t (0 : Fin 2) = t.val - 26 ∧ win0_5.index t (1 : Fin 2) = 0)

/-- Entry (p, j) of the block of L at a grid point t from 1 to 25 is entry (400 (t - 1) + p, j) of L. -/
theorem lblk_mid_apply (h1 : 1 ≤ t.val) (h2 : t.val ≤ 25) (p : Fin 400) (j : Fin 10000) :
    (iblk m c 5 t : Vec Ideal S400x10000 .f32) (ix2 p j)
      = m ((c : Thread nD τ).loc main_arg0) (ix2 ⟨400 * (t.val - 1) + p.val, by omega⟩ j) := by
  rw [← V_main_arg0 m c]
  show V m c main_arg0 (((cfg0.win 5).blk t).view.emb (ix2 p j)) = V m c main_arg0 _
  refine congrArg _ (funext fun a => Fin.ext ?_)
  obtain ⟨e0, e1⟩ := stripe_mid t h1 h2
  match a with
  | ⟨0, _⟩ => show win0_5.index t (0 : Fin 2) * 400 + 1 * p.val = 400 * (t.val - 1) + p.val; omega
  | ⟨1, _⟩ => show win0_5.index t (1 : Fin 2) * 10000 + 1 * j.val = j.val; omega

/-- Entry (p, j) of the block of L at a grid point t from 26 on is entry (400 (t - 26) + p, j) of L. -/
theorem lblk_last_apply (h : 26 ≤ t.val) (p : Fin 400) (j : Fin 10000) :
    (iblk m c 5 t : Vec Ideal S400x10000 .f32) (ix2 p j)
      = m ((c : Thread nD τ).loc main_arg0) (ix2 ⟨400 * (t.val - 26) + p.val, by
          have := Nat.lt_of_lt_of_eq t.isLt N_0; omega⟩ j) := by
  rw [← V_main_arg0 m c]
  show V m c main_arg0 (((cfg0.win 5).blk t).view.emb (ix2 p j)) = V m c main_arg0 _
  refine congrArg _ (funext fun a => Fin.ext ?_)
  obtain ⟨e0, e1⟩ := stripe_last t h
  match a with
  | ⟨0, _⟩ => show win0_5.index t (0 : Fin 2) * 400 + 1 * p.val = 400 * (t.val - 26) + p.val; omega
  | ⟨1, _⟩ => show win0_5.index t (1 : Fin 2) * 10000 + 1 * j.val = j.val; omega

end Cert.Gcn.Blocks

end
-- ==== Proof.Spec.lean ====
import Idealize.ShloMosaic.PureOps.Ideal
import Idealize.ShloMosaic.Lib.ValueIdx

/-!
  The two-layer graph convolution over the extended reals, entry by entry.

  With L the 10000 × 10000 Laplacian, X the 10000 × 128 features, W1 (128 × 16), b1 (16), W2 (16 × 7), b2 (7):
    support1 = X · W1,   hidden = max (L · support1 + b1) 0,   support2 = hidden · W2,   logits = L · support2 + b2.
  Every product is the plain sum over the contracted coordinate, in this association order; nothing is distributed
  or cancelled, so no finiteness of the inputs is needed to compare two programs that both compute it.
-/

noncomputable section

open scoped BigOperators

namespace Cert.Gcn

open Idealize.ShloMosaic Idealize.ShloMosaic.ValueIdx

/-- A matrix of extended reals with `r` rows and `n` columns. -/
abbrev Mat (r n : Nat) : Type := (⟨2, ![r, n]⟩ : Shape).Idx → EReal
/-- A vector of extended reals of length `n`. -/
abbrev Row (n : Nat) : Type := (⟨1, ![n]⟩ : Shape).Idx → EReal

/-- Entry (p, q) of X · W1. -/
def support1 (X : Mat 10000 128) (W1 : Mat 128 16) (p : Fin 10000) (q : Fin 16) : EReal :=
  ∑ k : Fin 128, X (ix2 p k) * W1 (ix2 k q)

/-- Entry (p, q) of max (L · (X · W1) + b1) 0. -/
def hidden (L : Mat 10000 10000) (X : Mat 10000 128) (W1 : Mat 128 16) (b1 : Row 16) (p : Fin 10000) (q : Fin 16) : EReal :=
  max ((∑ j : Fin 10000, L (ix2 p j) * support1 X W1 j q) + b1 (ix1 q)) 0

/-- Entry (p, q) of hidden · W2. -/
def support2 (L : Mat 10000 10000) (X : Mat 10000 128) (W1 : Mat 128 16) (b1 : Row 16) (W2 : Mat 16 7)
    (p : Fin 10000) (q : Fin 7) : EReal :=
  ∑ k : Fin 16, hidden L X W1 b1 p k * W2 (ix2 k q)

/-- Entry (p, q) of L · support2 + b2. -/
def logitsAt (L : Mat 10000 10000) (X : Mat 10000 128) (W1 : Mat 128 16) (b1 : Row 16) (W2 : Mat 16 7) (b2 : Row 7)
    (p : Fin 10000) (q : Fin 7) : EReal :=
  (∑ j : Fin 10000, L (ix2 p j) * support2 L X W1 b1 W2 j q) + b2 (ix1 q)

/-- The network's output as one array. -/
def logits (L : Mat 10000 10000) (X : Mat 10000 128) (W1 : Mat 128 16) (b1 : Row 16) (W2 : Mat 16 7) (b2 : Row 7) :
    Mat 10000 7 :=
  fun i => logitsAt L X W1 b1 W2 b2 (i 0) (i 1)

theorem logits_apply (L : Mat 10000 10000) (X : Mat 10000 128) (W1 : Mat 128 16) (b1 : Row 16) (W2 : Mat 16 7) (b2 : Row 7)
    (p : Fin 10000) (q : Fin 7) : logits L X W1 b1 W2 b2 (ix2 p q) = logitsAt L X W1 b1 W2 b2 p q := rfl

end Cert.Gcn

end
-- ==== Proof.KIBridge.lean ====
import proofs.«110868_g70901320122454_cont_9to1_m_1154_4_alg».proof.Proof.KIData
import proofs.«110868_g70901320122454_cont_9to1_m_1154_4_alg».proof.Proof.PayIdeal
import proofs.«110868_g70901320122454_cont_9to1_m_1154_4_alg».proof.Proof.BlockReads
import proofs.«110868_g70901320122454_cont_9to1_m_1154_4_alg».proof.Proof.Spec

/-!
  The kernel's result array is the specification's output, over the extended reals.

  The kernel forms X · W1 at its first grid point, keeps it, and at grid point r / 400 + 1 forms rows
  400 (r / 400) … 400 (r / 400) + 399 of the second support hidden · W2 from that point's 400-row stripe of L. At
  grid point r / 400 + 26 it forms the same rows of the result L · (hidden · W2) + b2, again from that point's stripe
  of L. Reading each stored value at one entry as its plain sum, and each block as the piece of the argument array it
  holds, every stage is the specification's own expression: first support, second support, result.
-/

noncomputable section

open scoped BigOperators

namespace Cert.Gcn.Bridge

open Cert.KernelIdeal Cert.KernelIdeal.Gen Cert.Proof.KI
open Idealize.ShloMosaic Idealize.ShloMosaic.ValueIdx Idealize.ShloMosaic.TcCoe

/-! ## Each stored value, from what its blocks hold -/

/-- The first stored value is X · W1 when its two blocks are X and W1. -/
theorem pay1_spec (Xb : Vec Ideal S10000x128 .f32) (Wb : Vec Ideal S128x16 .f32)
    (X : Mat 10000 128) (W1 : Mat 128 16) (hX : Xb = X) (hW : Wb = W1) (p : Fin 10000) (q : Fin 16) :
    k0_pay1 (F := Ideal) Xb Wb (ix2 p q) = support1 X W1 p q := by
  subst hX hW
  exact Cert.Gcn.Pay.pay1_apply Xb Wb p q

/-- The second stored value at row p of its block is row r of hidden · W2, when row p of the block of L is row r of
    L, the kept array is X · W1, the bias block's row 0 is b1 and the weight block is W2. -/
theorem pay2_spec (Lb : Vec Ideal S400x10000 .f32) (S1 : Vec Ideal S10000x16 .f32) (bb : Vec Ideal S1x16 .f32)
    (Wb : Vec Ideal S16x7 .f32)
    (L : Mat 10000 10000) (X : Mat 10000 128) (W1 : Mat 128 16) (b1 : Row 16) (W2 : Mat 16 7)
    (r : Fin 10000) (p : Fin 400)
    (hL : ∀ j : Fin 10000, Lb (ix2 p j) = L (ix2 r j))
    (hS : ∀ (j : Fin 10000) (k : Fin 16), S1 (ix2 j k) = support1 X W1 j k)
    (hb : ∀ k : Fin 16, bb (ix2 (0 : Fin 1) k) = b1 (ix1 k))
    (hW : Wb = W2) (q : Fin 7) :
    k0_pay2 (F := Ideal) Lb S1 bb Wb (ix2 p q) = support2 L X W1 b1 W2 r q := by
  subst hW
  refine (Cert.Gcn.Pay.pay2_apply Lb S1 bb Wb p q).trans ?_
  unfold support2 hidden
  refine Finset.sum_congr rfl fun k _ => ?_
  have hs : (∑ j : Fin 10000, Lb (ix2 p j) * S1 (ix2 j k)) = ∑ j : Fin 10000, L (ix2 r j) * support1 X W1 j k :=
    Finset.sum_congr rfl fun j _ => by rw [hL j, hS j k]
  rw [hs, hb k]

/-- The third stored value at row p of its block is row r of L · (hidden · W2) + b2, when row p of the block of L is
    row r of L, the kept array is hidden · W2 and the bias block's row 0 is b2. -/
theorem pay3_spec (Lb : Vec Ideal S400x10000 .f32) (S2 : Vec Ideal S10000x7 .f32) (bb : Vec Ideal S1x7 .f32)
    (L : Mat 10000 10000) (X : Mat 10000 128) (W1 : Mat 128 16) (b1 : Row 16) (W2 : Mat 16 7) (b2 : Row 7)
    (r : Fin 10000) (p : Fin 400)
    (hL : ∀ j : Fin 10000, Lb (ix2 p j) = L (ix2 r j))
    (hS : ∀ (j : Fin 10000) (q : Fin 7), S2 (ix2 j q) = support2 L X W1 b1 W2 j q)
    (hb : ∀ q : Fin 7, bb (ix2 (0 : Fin 1) q) = b2 (ix1 q)) (q : Fin 7) :
    k0_pay3 (F := Ideal) Lb S2 bb (ix2 p q) = logitsAt L X W1 b1 W2 b2 r q := by
  refine (Cert.Gcn.Pay.pay3_apply Lb S2 bb p q).trans ?_
  unfold logitsAt
  have hs : (∑ j : Fin 10000, Lb (ix2 p j) * S2 (ix2 j q)) = ∑ j : Fin 10000, L (ix2 r j) * support2 L X W1 b1 W2 j q :=
    Finset.sum_congr rfl fun j _ => by rw [hL j, hS j q]
  rw [hs, hb q]

/-! ## The kernel's stages -/

variable (m : (ℓ : Loc nD τ sig) → Buf (Elt Ideal) ℓ) (c : Dev nD)

/-- The array the first grid point forms is X · W1. -/
theorem s1_apply (p : Fin 10000) (q : Fin 16) :
    S1val (F := Ideal) m c (ix2 p q) = Cert.Gcn.support1 (m ((c : Thread nD τ).loc main_arg1)) (m ((c : Thread nD τ).loc main_arg2)) p q :=
  pay1_spec (xblk m c t0) (w1blk m c t0) _ _ (Cert.Gcn.Blocks.xblk_eq m c t0) (Cert.Gcn.Blocks.w1blk_eq m c t0) p q

/-- Row r of the array the middle grid points form is row r of hidden · W2. -/
theorem s2_apply (r : Fin 10000) (q : Fin 7) :
    S2val (F := Ideal) m c (ix2 r q)
      = Cert.Gcn.support2 (m ((c : Thread nD τ).loc main_arg0)) (m ((c : Thread nD τ).loc main_arg1)) (m ((c : Thread nD τ).loc main_arg2)) (m ((c : Thread nD τ).loc main_arg3)) (m ((c : Thread nD τ).loc main_arg4)) r q := by
  have h1 : 1 ≤ (stripePt r).val := Nat.le_add_left 1 _
  have h2 : (stripePt r).val ≤ 25 := by
    have := r.isLt
    show r.val / 400 + 1 ≤ 25
    omega
  show k0_pay2 (F := Ideal) (lblk m c (stripePt r)) (S1val m c) (b1blk m c (stripePt r)) (w2blk m c (stripePt r))
    (ix2 (stripeRow r) q) = _
  refine pay2_spec (lblk m c (stripePt r)) (S1val m c) (b1blk m c (stripePt r)) (w2blk m c (stripePt r)) _ _ _ _ _
    r (stripeRow r) (fun j => ?_) (s1_apply m c) (Cert.Gcn.Blocks.b1blk_apply m c (stripePt r))
    (Cert.Gcn.Blocks.w2blk_eq m c (stripePt r)) q
  refine (Cert.Gcn.Blocks.lblk_mid_apply m c (stripePt r) h1 h2 (stripeRow r) j).trans ?_
  refine congrArg (fun i : Fin 10000 => (m ((c : Thread nD τ).loc main_arg0)) (ix2 i j)) (Fin.ext ?_)
  have := r.isLt
  show 400 * (r.val / 400 + 1 - 1) + r.val % 400 = r.val
  omega

/-- Row r of the result, as the block of the grid point r / 400 + 26 holds it at its row r mod 400. -/
theorem out_apply (r : Fin 10000) (q : Fin 7) :
    outBlk (F := Ideal) m c ⟨r.val / 400 + 26, by have := r.isLt; show _ < grid0.N; rw [N_0]; omega⟩ (ix2 (stripeRow r) q)
      = Cert.Gcn.logitsAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) r q := by
  have hN : r.val / 400 + 26 < cfg0.N := by have := r.isLt; show _ < grid0.N; rw [N_0]; omega
  show k0_pay3 (F := Ideal) (lblk m c ⟨r.val / 400 + 26, hN⟩) (S2val m c) (b2blk m c ⟨r.val / 400 + 26, hN⟩)
    (ix2 (stripeRow r) q) = _
  refine pay3_spec (lblk m c ⟨r.val / 400 + 26, hN⟩) (S2val m c) (b2blk m c ⟨r.val / 400 + 26, hN⟩) _ _ _ _ _ _
    r (stripeRow r) (fun j => ?_) (s2_apply m c) (Cert.Gcn.Blocks.b2blk_apply m c ⟨r.val / 400 + 26, hN⟩) q
  refine (Cert.Gcn.Blocks.lblk_last_apply m c ⟨r.val / 400 + 26, hN⟩ (Nat.le_add_left 26 _) (stripeRow r) j).trans ?_
  refine congrArg (fun i : Fin 10000 => (m ((c : Thread nD τ).loc main_arg0)) (ix2 i j)) (Fin.ext ?_)
  have := r.isLt
  show 400 * (r.val / 400 + 26 - 26) + r.val % 400 = r.val
  omega

/-- The result rows, gathered from the last 25 grid points' blocks, are the specification's output array. -/
theorem outArr_eq :
    (fun y : S10000x7.Idx =>
        outBlk (F := Ideal) m c ⟨(y 0).val / 400 + 26, by have := idx2_lt0 y; show _ < grid0.N; rw [N_0]; omega⟩ (ix2 (stripeRow (y 0)) (y 1)))
      = Cert.Gcn.logits (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  funext fun y => out_apply m c (y 0) (y 1)

end Cert.Gcn.Bridge

end
-- ==== Proof.KIFinal.lean ====
import proofs.«110868_g70901320122454_cont_9to1_m_1154_4_alg».proof.Proof.KIRun
import proofs.«110868_g70901320122454_cont_9to1_m_1154_4_alg».proof.Proof.KIArray
import proofs.«110868_g70901320122454_cont_9to1_m_1154_4_alg».proof.Proof.KIBridge

/-!
  The idealized kernel's run with its result named: every weakly fair execution of @main ends with the result array
  at the two-layer network of the argument arrays (the specification `Cert.Gcn.logits`), and the arguments as they
  were. The run is the frame run; the result array is read off the run's post as the blocks the last phase wrote back,
  and those blocks, entry by entry, are the specification's sums.
-/

noncomputable section

namespace Cert.Proof.KI

open Cert.KernelIdeal Cert.KernelIdeal.Gen
open Idealize.ShloMosaic
open Idealize.ShloMosaic.TcCoe
open Idealize.SL Idealize.SL.Sem
open Idealize.ShloMosaic.Pipeline (Dat)

variable (m : (ℓ : Loc nD τ sig) → Buf (Elt Ideal) ℓ) (ρ : Dev nD → PrngReg)

/-- The result array after the run is the specification of the argument arrays. -/
theorem result_array (c : Dev nD) :
    (dats (F := Ideal) m 0 c).arrAt 6 cfg0.N
      = Cert.Gcn.logits (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) :=
  (final_out (F := Ideal) m c).trans (Cert.Gcn.Bridge.outArr_eq m c)

theorem value_run : θ_run defs (onTc (τ := τ) (main (F := Ideal))) ⟨m, fun _ => 0, ρ⟩ (fun r => ∀ c : Dev nD,
      r.2.mem ((c.tc : Thread nD τ).loc main_v2)
        = Cert.Gcn.logits (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 6).trans (result_array m c),
      ((h c).1 5).trans (((dats m 0 c).arrAt_in 5 rfl _).trans ((A_eq m c 5).trans (V_main_arg0 m c))),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      ((h c).2 main_arg3 (Pipeline.mem_restRefs_of main_arg3 (by decide) (by decide))).trans (V_main_arg3 m c),
      ((h c).1 3).trans (((dats m 0 c).arrAt_in 3 rfl _).trans ((A_eq m c 3).trans (V_main_arg4 m c))),
      ((h c).2 main_arg5 (Pipeline.mem_restRefs_of main_arg5 (by decide) (by decide))).trans (V_main_arg5 m c)⟩)
    (run_main (F := Ideal) m ρ)

end Cert.Proof.KI

end
-- ==== Proof.RefLeg.lean ====
import proofs.«110868_g70901320122454_cont_9to1_m_1154_4_alg».proof.Proof.Gen.ReferenceIdeal.Run
import proofs.«110868_g70901320122454_cont_9to1_m_1154_4_alg».proof.Proof.Gen.ReferenceIdeal.Read
import proofs.«110868_g70901320122454_cont_9to1_m_1154_4_alg».proof.Proof.Spec
import proofs.«110868_g70901320122454_cont_9to1_m_1154_4_alg».proof.Proof.LibPlainDot
import Idealize.ShloMosaic.PureOps.Ideal
import Idealize.ShloMosaic.PureOps.Ideal.Laws
import Idealize.ShloMosaic.Lib.ValueIdx

/-!
  The reference computes the two-layer graph convolution of the specification.

  Over the extended reals the reference's result array is, entry by entry,
    logits = L · (max (L · (X · W1) + b1) 0 · W2) + b2,
  each product the plain sum over the contracted coordinate. The stages are read bottom-up: X · W1 at (p, q), then
  L · (X · W1), the bias row b1 repeated down the rows, the zero array, the rectified hidden layer, hidden · W2,
  L · (hidden · W2), the bias row b2, and the sum. Nothing is reassociated: every stage is the specification's own
  expression at that entry.
-/

noncomputable section

open scoped BigOperators

namespace Cert.Gcn.Ref

open Cert.ReferenceIdeal Cert.ReferenceIdeal.Gen Cert.ReferenceIdeal.Read
open Idealize.ShloMosaic Idealize.ShloMosaic.ValueIdx Idealize.ShloMosaic.TcCoe Idealize.SL.Sem

variable (L : FVec Ideal S10000x10000 .f32) (X : FVec Ideal S10000x128 .f32) (W1 : FVec Ideal S128x16 .f32)
  (b1 : FVec Ideal S16 .f32) (W2 : FVec Ideal S16x7 .f32) (b2 : FVec Ideal S7 .f32)

/-- Entry (p, q) of X · W1. -/
theorem v0_at (p : Fin 10000) (q : Fin 16) :
    val_main_v0 (F := Ideal) X W1 (ix2 p q) = support1 X W1 p q :=
  Cert.Lib.PlainDot.dotGeneral_apply dot_S10000x128_S128x16_S10000x16_1_0_0_1_n_n rfl rfl rfl rfl rfl rfl none .single
    X W1 p q

/-- Entry (p, q) of L · (X · W1). -/
theorem v1_at (p : Fin 10000) (q : Fin 16) :
    val_main_v1 (F := Ideal) L X W1 (ix2 p q) = ∑ j : Fin 10000, L (ix2 p j) * support1 X W1 j q := by
  refine (Cert.Lib.PlainDot.dotGeneral_apply dot_S10000x10000_S10000x16_S10000x16_1_0_0_1_n_n rfl rfl rfl rfl rfl rfl
    none .single L (val_main_v0 (F := Ideal) X W1) p q).trans ?_
  exact Finset.sum_congr rfl fun j _ => by rw [v0_at]

/-- The bias row b1 repeated down the rows: entry (p, q) is b1 at q. -/
theorem v3_at (p : Fin 10000) (q : Fin 16) : val_main_v3 (F := Ideal) b1 (ix2 p q) = b1 (ix1 q) := by
  rw [val_main_v3_apply, val_main_v2_apply]
  exact congrArg b1 (funext fun a => match a with | ⟨0, _⟩ => rfl)

/-- Every entry of the zero array is the extended real 0. -/
theorem zero_at (i : S10000x16.Idx) : val_main_call0_v0 (F := Ideal) i = 0 := by
  rw [val_main_call0_v0_apply, val_main_call0_cst_apply]
  exact Ideal.ofBits_zero_f32

/-- Entry (p, q) of the hidden layer max (L · (X · W1) + b1) 0. -/
theorem v5_at (p : Fin 10000) (q : Fin 16) :
    val_main_v5 (F := Ideal) L X W1 b1 (ix2 p q) = hidden L X W1 b1 p q := by
  rw [val_main_v5_apply, val_main_v4_apply, v1_at, v3_at, zero_at]
  rfl

/-- Entry (p, q) of hidden · W2. -/
theorem v6_at (p : Fin 10000) (q : Fin 7) :
    val_main_v6 (F := Ideal) L X W1 b1 W2 (ix2 p q) = support2 L X W1 b1 W2 p q := by
  refine (Cert.Lib.PlainDot.dotGeneral_apply dot_S10000x16_S16x7_S10000x7_1_0_0_1_n_n rfl rfl rfl rfl rfl rfl
    none .single (val_main_v5 (F := Ideal) L X W1 b1) W2 p q).trans ?_
  unfold support2
  exact Finset.sum_congr rfl fun k _ => by rw [v5_at]

/-- Entry (p, q) of L · (hidden · W2). -/
theorem v7_at (p : Fin 10000) (q : Fin 7) :
    val_main_v7 (F := Ideal) L X W1 b1 W2 (ix2 p q) = ∑ j : Fin 10000, L (ix2 p j) * support2 L X W1 b1 W2 j q := by
  refine (Cert.Lib.PlainDot.dotGeneral_apply dot_S10000x10000_S10000x7_S10000x7_1_0_0_1_n_n rfl rfl rfl rfl rfl rfl
    none .single L (val_main_v6 (F := Ideal) L X W1 b1 W2) p q).trans ?_
  exact Finset.sum_congr rfl fun j _ => by rw [v6_at]

/-- The bias row b2 repeated down the rows: entry (p, q) is b2 at q. -/
theorem v9_at (p : Fin 10000) (q : Fin 7) : val_main_v9 (F := Ideal) b2 (ix2 p q) = b2 (ix1 q) := by
  rw [val_main_v9_apply, val_main_v8_apply]
  exact congrArg b2 (funext fun a => match a with | ⟨0, _⟩ => rfl)

/-- Entry (p, q) of the result L · (hidden · W2) + b2. -/
theorem v10_at (p : Fin 10000) (q : Fin 7) :
    val_main_v10 (F := Ideal) L X W1 b1 W2 b2 (ix2 p q) = logitsAt L X W1 b1 W2 b2 p q := by
  rw [val_main_v10_apply, v7_at, v9_at]
  rfl

/-- The reference's result, as a function of its six argument arrays, is the specification's output array. -/
theorem result_eq :
    addf (Host.dotGeneral dot_S10000x10000_S10000x7_S10000x7_1_0_0_1_n_n none (L) (Host.dotGeneral dot_S10000x16_S16x7_S10000x7_1_0_0_1_n_n none (maximumf (addf (Host.dotGeneral dot_S10000x10000_S10000x16_S10000x16_1_0_0_1_n_n none (L) (Host.dotGeneral dot_S10000x128_S128x16_S10000x16_1_0_0_1_n_n none (X) (W1))) (broadcastInDim S10000x16 ![0, 1] bcast_S1x16_S10000x16_0_1 (broadcastInDim S1x16 ![1] bcast_S16_S1x16_1 (b1)))) (broadcastInDim S10000x16 ![] bcast_S_S10000x16 (constant S_ .f32 0x00000000#32))) (W2))) (broadcastInDim S10000x7 ![0, 1] bcast_S1x7_S10000x7_0_1 (broadcastInDim S1x7 ![1] bcast_S7_S1x7_1 (b2)))
      = Cert.Gcn.logits L X W1 b1 W2 b2 := by
  rw [val_main_v10_eq]
  funext i
  obtain ⟨p, q, rfl⟩ : ∃ p q, i = ix2 p q := ⟨i 0, i 1, eq_ix2 i⟩
  rw [v10_at]
  rfl

/-- On every device, from any memory with zero counters: every weakly fair execution of the reference terminates
    with its result array at the specification's output of the argument arrays, and the arguments unchanged. -/
theorem run_logits (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v10) = Cert.Gcn.logits (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)) :=
  (θ_run _ _ _).mono (fun _ h c => ⟨(h c).1.trans (result_eq _ _ _ _ _ _), (h c).2⟩)
    (Cert.ReferenceIdeal.Value.run (F := Ideal) m ρ)

end Cert.Gcn.Ref

end
-- ==== Proof.lean ====
/-
  A two-layer graph convolution, logits = L · (max (L · (X · W1) + b1) 0 · W2) + b2, over a dense 10000 × 10000
  Laplacian, fused into ONE pipelined kernel of 51 grid points against the plain formula on the host.

  The kernel keeps two arrays between grid points. Point 0 forms S1 = X · W1 in the first. Points 1 to 25 each
  take one 400-row stripe of L and store that stripe's rows of S2 = max (L · S1 + b1) 0 · W2 into the second, at the
  stripe's rows. Points 26 to 50 each take one stripe of L again and write that stripe's rows of L · S2 + b2 to the
  result. The result window's block index stays at 0 through point 26, and the body stores nothing into the result's
  buffer before point 26, so nothing is written back before the first real block is.

  Frames (for the kernel as printed and for its idealization, the same text read at two float instances): the body is
  run phase by phase; between points the invariant says what the two kept arrays hold: after point 0 the first is S1,
  and before point n the second agrees with S2 on the rows below 400 (n - 1). The reference's frame is its run with
  the result dropped.

  Value: at the ideal instance a matrix product into a zero accumulator is the plain sum over the contracted
  coordinate, so each payload is the specification's sum entry by entry; the written-back blocks tile the result array;
  the reference's host operations compose to the same sums in the same association order. No law of the extended
  reals beyond reading both sides is used, so the inputs' finiteness is never opened. The ideal pass rewrote nothing,
  so the idealization claim is trivial.
-/
import proofs.«110868_g70901320122454_cont_9to1_m_1154_4_alg».proof.Defs
import proofs.«110868_g70901320122454_cont_9to1_m_1154_4_alg».proof.Proof.Gen.Kernel
import proofs.«110868_g70901320122454_cont_9to1_m_1154_4_alg».proof.Proof.Gen.KernelIdeal
import proofs.«110868_g70901320122454_cont_9to1_m_1154_4_alg».proof.Proof.Gen.ReferenceIdeal
import proofs.«110868_g70901320122454_cont_9to1_m_1154_4_alg».proof.Proof.Gen.Pre_finite_inputs
import proofs.«110868_g70901320122454_cont_9to1_m_1154_4_alg».proof.Proof.KRun
import proofs.«110868_g70901320122454_cont_9to1_m_1154_4_alg».proof.Proof.KIFinal
import proofs.«110868_g70901320122454_cont_9to1_m_1154_4_alg».proof.Proof.RefLeg
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Proof.K.frame (F := Bits) m ρ

theorem frame_ki : @Cert.frame_KernelIdeal Cert.KernelIdeal.Gen.facts Cert.Pre_finite_inputs.Gen.facts :=
  fun m ρ _ => Cert.Proof.KI.frame (F := Ideal) m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Both idealized programs end at the specification of arguments that agree. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨_, Cert.Proof.KI.value_run m ρ, ?_⟩
  refine (θ_run Cert.ReferenceIdeal.defs _ _).mono (fun _ h c => ⟨(h c).1.trans ?_, (h c).2⟩)
    (Cert.Gcn.Ref.run_logits m' ρ')
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
